-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x300x92 : Shape := ⟨3, ![32, 300, 92]⟩
abbrev S32x300x4 : Shape := ⟨3, ![32, 300, 4]⟩
abbrev S32x50 : Shape := ⟨2, ![32, 50]⟩
abbrev S32x50x4 : Shape := ⟨3, ![32, 50, 4]⟩
abbrev S_ : Shape := ⟨0, ![]⟩

class Facts : Prop where
  bcast_S_S32x300x92 : S_.BroadcastsInDim S32x300x92 (![] : Fin 0 → Fin S32x300x92.rank)
  reducesTo_S32x300x92_S_d0_1_2 : S32x300x92.ReducesTo [0, 1, 2] S_
  h_S_ : 0 < S_.numel
  bcast_S_S32x300x4 : S_.BroadcastsInDim S32x300x4 (![] : Fin 0 → Fin S32x300x4.rank)
  reducesTo_S32x300x4_S_d0_1_2 : S32x300x4.ReducesTo [0, 1, 2] S_
  bcast_S_S32x50x4 : S_.BroadcastsInDim S32x50x4 (![] : Fin 0 → Fin S32x50x4.rank)
  reducesTo_S32x50x4_S_d0_1_2 : S32x50x4.ReducesTo [0, 1, 2] S_
  bcast_S_S32x50 : S_.BroadcastsInDim S32x50 (![] : Fin 0 → Fin S32x50.rank)
  reducesTo_S32x50_S_d0_1 : S32x50.ReducesTo [0, 1] S_

variable [Facts]

def fn_part1 {F : FTy → Type} [FloatOps F] (main_arg2 : IVec S32x50 32) (main_v13 : IVec S_ 1) (main_v15 : IVec S32x50 1) (main_c_5 : IVec S_ 32) : IVec S_ 1 :=
  let main_v16 : IVec S32x50 32 := broadcastInDim S32x50 ![] bcast_S_S32x50 main_c_5
  let main_v17 : IVec S32x50 1 := cmpi .slt main_arg2 main_v16
  let main_v18 : IVec S32x50 1 := andi main_v15 main_v17
  let main_c_6 : IVec S_ 1 := constantI S_ 1 1#1
  let main_v19 : IVec S_ 1 := (fun x v => Host.reduce IntOp.andi x v reducesTo_S32x50_S_d0_1 h_S_) main_v18 main_c_6
  let main_v20 : IVec S_ 1 := andi main_v13 main_v19
  main_v20

def fn {F : FTy → Type} [FloatOps F] (main_arg0 : FVec F S32x300x92 .f32) (main_arg1 : FVec F S32x300x4 .f32) (main_arg2 : IVec S32x50 32) (main_arg3 : FVec F S32x50x4 .f32) : IVec S_ 1 :=
  let main_v0 : FVec F S32x300x92 .f32 := Host.absf main_arg0
  let main_cst : FVec F S_ .f32 := constant S_ .f32 0x7F800000#32
  let main_v1 : FVec F S32x300x92 .f32 := broadcastInDim S32x300x92 ![] bcast_S_S32x300x92 main_cst
  let main_v2 : IVec S32x300x92 1 := cmpf .olt main_v0 main_v1
  let main_c : IVec S_ 1 := constantI S_ 1 1#1
  let main_v3 : IVec S_ 1 := (fun x v => Host.reduce IntOp.andi x v reducesTo_S32x300x92_S_d0_1_2 h_S_) main_v2 main_c
  let main_v4 : FVec F S32x300x4 .f32 := Host.absf main_arg1
  let main_cst_0 : FVec F S_ .f32 := constant S_ .f32 0x7F800000#32
  let main_v5 : FVec F S32x300x4 .f32 := broadcastInDim S32x300x4 ![] bcast_S_S32x300x4 main_cst_0
  let main_v6 : IVec S32x300x4 1 := cmpf .olt main_v4 main_v5
  let main_c_1 : IVec S_ 1 := constantI S_ 1 1#1
  let main_v7 : IVec S_ 1 := (fun x v => Host.reduce IntOp.andi x v reducesTo_S32x300x4_S_d0_1_2 h_S_) main_v6 main_c_1
  let main_v8 : IVec S_ 1 := andi main_v3 main_v7
  let main_v9 : FVec F S32x50x4 .f32 := Host.absf main_arg3
  let main_cst_2 : FVec F S_ .f32 := constant S_ .f32 0x7F800000#32
  let main_v10 : FVec F S32x50x4 .f32 := broadcastInDim S32x50x4 ![] bcast_S_S32x50x4 main_cst_2
  let main_v11 : IVec S32x50x4 1 := cmpf .olt main_v9 main_v10
  let main_c_3 : IVec S_ 1 := constantI S_ 1 1#1
  let main_v12 : IVec S_ 1 := (fun x v => Host.reduce IntOp.andi x v reducesTo_S32x50x4_S_d0_1_2 h_S_) main_v11 main_c_3
  let main_v13 : IVec S_ 1 := andi main_v8 main_v12
  let main_c_4 : IVec S_ 32 := constantI S_ 32 0#32
  let main_v14 : IVec S32x50 32 := broadcastInDim S32x50 ![] bcast_S_S32x50 main_c_4
  let main_v15 : IVec S32x50 1 := cmpi .sge main_arg2 main_v14
  let main_c_5 : IVec S_ 32 := constantI S_ 32 92#32
  fn_part1 (F := F) main_arg2 main_v13 main_v15 main_c_5
-- ==== Kernel.lean ====
abbrev S32x300x92 : Shape := ⟨3, ![32, 300, 92]⟩
abbrev S32x300x4 : Shape := ⟨3, ![32, 300, 4]⟩
abbrev S32x50 : Shape := ⟨2, ![32, 50]⟩
abbrev S32x50x4 : Shape := ⟨3, ![32, 50, 4]⟩
abbrev S9600x92 : Shape := ⟨2, ![9600, 92]⟩
abbrev S9600x4 : Shape := ⟨2, ![9600, 4]⟩
abbrev S1600x4 : Shape := ⟨2, ![1600, 4]⟩
abbrev S1600 : Shape := ⟨1, ![1600]⟩
abbrev S1x1600 : Shape := ⟨2, ![1, 1600]⟩
abbrev S92x1 : Shape := ⟨2, ![92, 1]⟩
abbrev S92x1600 : Shape := ⟨2, ![92, 1600]⟩
abbrev S1600x1 : Shape := ⟨2, ![1600, 1]⟩
abbrev S_ : Shape := ⟨0, ![]⟩
abbrev S9600x1600 : Shape := ⟨2, ![9600, 1600]⟩
abbrev S480x92 : Shape := ⟨2, ![480, 92]⟩
abbrev S480x4 : Shape := ⟨2, ![480, 4]⟩
abbrev S480x1600 : Shape := ⟨2, ![480, 1600]⟩
abbrev S480 : Shape := ⟨1, ![480]⟩
abbrev S480x1 : Shape := ⟨2, ![480, 1]⟩
abbrev S32x300x1600 : Shape := ⟨3, ![32, 300, 1600]⟩

abbrev nBuf : Space → Nat
  | .hbm => 45
  | .vmem => 9
  | .smem => 0
  | _ => 0

abbrev bufTy : (tb : Table) → Fin (tcTables nBuf tb) → BufTy
  | .hbm, ⟨0, _⟩ => ⟨S32x300x92, .f32⟩
  | .hbm, ⟨1, _⟩ => ⟨S32x300x4, .f32⟩
  | .hbm, ⟨2, _⟩ => ⟨S32x50, .i32⟩
  | .hbm, ⟨3, _⟩ => ⟨S32x50x4, .f32⟩
  | .hbm, ⟨4, _⟩ => ⟨S9600x92, .f32⟩
  | .hbm, ⟨5, _⟩ => ⟨S9600x4, .f32⟩
  | .hbm, ⟨6, _⟩ => ⟨S1600x4, .f32⟩
  | .hbm, ⟨7, _⟩ => ⟨S1600, .i32⟩
  | .hbm, ⟨8, _⟩ => ⟨S1x1600, .i32⟩
  | .hbm, ⟨9, _⟩ => ⟨S92x1, .i32⟩
  | .hbm, ⟨10, _⟩ => ⟨S92x1600, .i32⟩
  | .hbm, ⟨11, _⟩ => ⟨S92x1600, .i32⟩
  | .hbm, ⟨12, _⟩ => ⟨S92x1600, .i1⟩
  | .hbm, ⟨13, _⟩ => ⟨S92x1600, .f32⟩
  | .hbm, ⟨14, _⟩ => ⟨S1600x1, .f32⟩
  | .hbm, ⟨15, _⟩ => ⟨S1600, .f32⟩
  | .hbm, ⟨16, _⟩ => ⟨S1600x1, .f32⟩
  | .hbm, ⟨17, _⟩ => ⟨S1600, .f32⟩
  | .hbm, ⟨18, _⟩ => ⟨S1600x1, .f32⟩
  | .hbm, ⟨19, _⟩ => ⟨S1600, .f32⟩
  | .hbm, ⟨20, _⟩ => ⟨S1600x1, .f32⟩
  | .hbm, ⟨21, _⟩ => ⟨S1600, .f32⟩
  | .hbm, ⟨22, _⟩ => ⟨S_, .f32⟩
  | .hbm, ⟨23, _⟩ => ⟨S1600, .f32⟩
  | .hbm, ⟨24, _⟩ => ⟨S1600, .f32⟩
  | .hbm, ⟨25, _⟩ => ⟨S1600, .f32⟩
  | .hbm, ⟨26, _⟩ => ⟨S_, .f32⟩
  | .hbm, ⟨27, _⟩ => ⟨S1600, .f32⟩
  | .hbm, ⟨28, _⟩ => ⟨S1600, .f32⟩
  | .hbm, ⟨29, _⟩ => ⟨S1600, .f32⟩
  | .hbm, ⟨30, _⟩ => ⟨S_, .f32⟩
  | .hbm, ⟨31, _⟩ => ⟨S1600, .f32⟩
  | .hbm, ⟨32, _⟩ => ⟨S1600, .f32⟩
  | .hbm, ⟨33, _⟩ => ⟨S1600, .f32⟩
  | .hbm, ⟨34, _⟩ => ⟨S_, .f32⟩
  | .hbm, ⟨35, _⟩ => ⟨S1600, .f32⟩
  | .hbm, ⟨36, _⟩ => ⟨S1600, .f32⟩
  | .hbm, ⟨37, _⟩ => ⟨S1600, .f32⟩
  | .hbm, ⟨38, _⟩ => ⟨S1600x1, .f32⟩
  | .hbm, ⟨39, _⟩ => ⟨S1600x1, .f32⟩
  | .hbm, ⟨40, _⟩ => ⟨S1600x1, .f32⟩
  | .hbm, ⟨41, _⟩ => ⟨S1600x1, .f32⟩
  | .hbm, ⟨42, _⟩ => ⟨S1600x4, .f32⟩
  | .hbm, ⟨43, _⟩ => ⟨S9600x1600, .f32⟩
  | .hbm, ⟨44, _⟩ => ⟨S32x300x1600, .f32⟩
  | .local _ .vmem, ⟨0, _⟩ => ⟨S480x92, .f32⟩
  | .local _ .vmem, ⟨1, _⟩ => ⟨S480x92, .f32⟩
  | .local _ .vmem, ⟨2, _⟩ => ⟨S480x4, .f32⟩
  | .local _ .vmem, ⟨3, _⟩ => ⟨S480x4, .f32⟩
  | .local _ .vmem, ⟨4, _⟩ => ⟨S1600x4, .f32⟩
  | .local _ .vmem, ⟨5, _⟩ => ⟨S1600x4, .f32⟩
  | .local _ .vmem, ⟨6, _⟩ => ⟨S92x1600, .f32⟩
  | .local _ .vmem, ⟨7, _⟩ => ⟨S480x1600, .f32⟩
  | .local _ .vmem, ⟨8, _⟩ => ⟨S480x1600, .f32⟩
  | _, _ => ⟨S32x300x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S480x92 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1600x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1600x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S92x1600 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S480x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x300x92_S9600x92 : S32x300x92.ShapeCasts S9600x92
  shapeCasts_S32x300x4_S9600x4 : S32x300x4.ShapeCasts S9600x4
  shapeCasts_S32x50x4_S1600x4 : S32x50x4.ShapeCasts S1600x4
  shapeCasts_S32x50_S1600 : S32x50.ShapeCasts S1600
  bcast_S1600_S1x1600_1 : S1600.BroadcastsInDim S1x1600 (![1] : Fin 1 → Fin S1x1600.rank)
  bcast_S1x1600_S92x1600_0_1 : S1x1600.BroadcastsInDim S92x1600 (![0, 1] : Fin 2 → Fin S92x1600.rank)
  bcast_S92x1_S92x1600_0_1 : S92x1.BroadcastsInDim S92x1600 (![0, 1] : Fin 2 → Fin S92x1600.rank)
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  bcast_S_S1600 : S_.BroadcastsInDim S1600 (![] : Fin 0 → Fin S1600.rank)
  bcast_S1600_S1600x1_0 : S1600.BroadcastsInDim S1600x1 (![0] : Fin 1 → Fin S1600x1.rank)
  concatenates_S1600x1_S1600x1_S1600x1_S1600x1_S1600x4_d1 : Shape.Concatenates [S1600x1, S1600x1, S1600x1, S1600x1] S1600x4 1
  inb_S480x92_S480x92_0_0 : ∀ a, (![0, 0] : Fin 2 → Nat) a + S480x92.size a ≤ S480x92.size a
  h_S480x92 : 0 < S480x92.numel
  shapeCasts_S480x92_S480x92 : S480x92.ShapeCasts S480x92
  reduces_S480x92_S480 : S480x92.Reduces [1] S480
  shapeCasts_S480_S480x1 : S480.ShapeCasts S480x1
  broadcasts_S480x1_S480x92 : S480x1.Broadcasts S480x92
  inb_S92x1600_S92x1600_0_0 : ∀ a, (![0, 0] : Fin 2 → Nat) a + S92x1600.size a ≤ S92x1600.size a
  h_S92x1600 : 0 < S92x1600.numel
  shapeCasts_S92x1600_S92x1600 : S92x1600.ShapeCasts S92x1600
  inb_S480x4_S480x4_0_0 : ∀ a, (![0, 0] : Fin 2 → Nat) a + S480x4.size a ≤ S480x4.size a
  h_S480x4 : 0 < S480x4.numel
  shapeCasts_S480x4_S480x4 : S480x4.ShapeCasts S480x4
  inb_S1600x4_S1600x4_0_0 : ∀ a, (![0, 0] : Fin 2 → Nat) a + S1600x4.size a ≤ S1600x4.size a
  h_S1600x4 : 0 < S1600x4.numel
  shapeCasts_S1600x4_S1600x4 : S1600x4.ShapeCasts S1600x4
  slices_S480x4_o0_0_S480x1 : S480x4.Slices ![0, 0] S480x1
  slices_S1600x4_o0_0_S1600x1 : S1600x4.Slices ![0, 0] S1600x1
  shapeCasts_S1600_S1x1600 : S1600.ShapeCasts S1x1600
  broadcasts_S480x1_S480x1600 : S480x1.Broadcasts S480x1600
  broadcasts_S1x1600_S480x1600 : S1x1600.Broadcasts S480x1600
  slices_S480x4_o0_1_S480x1 : S480x4.Slices ![0, 1] S480x1
  slices_S1600x4_o0_1_S1600x1 : S1600x4.Slices ![0, 1] S1600x1
  slices_S480x4_o0_2_S480x1 : S480x4.Slices ![0, 2] S480x1
  slices_S1600x4_o0_2_S1600x1 : S1600x4.Slices ![0, 2] S1600x1
  slices_S480x4_o0_3_S480x1 : S480x4.Slices ![0, 3] S480x1
  slices_S1600x4_o0_3_S1600x1 : S1600x4.Slices ![0, 3] S1600x1
  inb_S480x1600_S480x1600_0_0 : ∀ a, (![0, 0] : Fin 2 → Nat) a + S480x1600.size a ≤ S480x1600.size a
  h_S480x1600 : 0 < S480x1600.numel
  shapeCasts_S9600x1600_S32x300x1600 : S9600x1600.ShapeCasts S32x300x1600
  dot_S480x92_S92x1600_S480x1600_1_0_0_1_n_n_wf : DotDims.WF S480x92 S92x1600 S480x1600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S480x92.size a ≤ S9600x92.size a
  hwx0_0 : ∀ i : grid0.Coords, EltTy.bits .f32 = 32 ∨ (Rect.block (s := S9600x92) S480x92.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S480x4.size a ≤ S9600x4.size a
  hwx0_1 : ∀ i : grid0.Coords, EltTy.bits .f32 = 32 ∨ (Rect.block (s := S9600x4) S480x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1600x4.size a ≤ S1600x4.size a
  hwx0_2 : ∀ i : grid0.Coords, EltTy.bits .f32 = 32 ∨ (Rect.block (s := S1600x4) S1600x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1600x4.size a ≤ S1600x4.size a
  hwx0_3 : ∀ i : grid0.Coords, EltTy.bits .f32 = 32 ∨ (Rect.block (s := S1600x4) S1600x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S92x1600.size a ≤ S92x1600.size a
  hwx0_4 : ∀ i : grid0.Coords, EltTy.bits .f32 = 32 ∨ (Rect.block (s := S92x1600) S92x1600.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S480x1600.size a ≤ S9600x1600.size a
  hwx0_5 : ∀ i : grid0.Coords, EltTy.bits .f32 = 32 ∨ (Rect.block (s := S9600x1600) S480x1600.size (cc0_transform_5 i) (hinb0_5 i)).WholeWords (EltTy.packing .f32)

variable [Facts₀]

def dot_S480x92_S92x1600_S480x1600_1_0_0_1_n_n : DotDims S480x92 S92x1600 S480x1600 where
  lhsContracting := [1]
  rhsContracting := [0]
  lhsNonContracting := [0]
  rhsNonContracting := [1]
  lhsBatch := []
  rhsBatch := []
  wf := dot_S480x92_S92x1600_S480x1600_1_0_0_1_n_n_wf

abbrev win0_0 : Pipeline.Window sig grid0 :=
  Pipeline.Window.ofSpec (Memref.whole main_v0) S480x92.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S480x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1600x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1600x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S92x1600.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S480x1600.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x300x92 : Shape := ⟨3, ![32, 300, 92]⟩
abbrev S32x300x4 : Shape := ⟨3, ![32, 300, 4]⟩
abbrev S32x50 : Shape := ⟨2, ![32, 50]⟩
abbrev S32x50x4 : Shape := ⟨3, ![32, 50, 4]⟩
abbrev S9600x92 : Shape := ⟨2, ![9600, 92]⟩
abbrev S_ : Shape := ⟨0, ![]⟩
abbrev S9600 : Shape := ⟨1, ![9600]⟩
abbrev S9600x1 : Shape := ⟨2, ![9600, 1]⟩
abbrev S9600x4 : Shape := ⟨2, ![9600, 4]⟩
abbrev S1600 : Shape := ⟨1, ![1600]⟩
abbrev S1600x4 : Shape := ⟨2, ![1600, 4]⟩
abbrev S1600x1 : Shape := ⟨2, ![1600, 1]⟩
abbrev S9600x1600 : Shape := ⟨2, ![9600, 1600]⟩
abbrev S9600x1x4 : Shape := ⟨3, ![9600, 1, 4]⟩
abbrev S1x1600x4 : Shape := ⟨3, ![1, 1600, 4]⟩
abbrev S9600x1600x4 : Shape := ⟨3, ![9600, 1600, 4]⟩
abbrev S9600x2 : Shape := ⟨2, ![9600, 2]⟩
abbrev S9600x1x2 : Shape := ⟨3, ![9600, 1, 2]⟩
abbrev S1600x2 : Shape := ⟨2, ![1600, 2]⟩
abbrev S1x1600x2 : Shape := ⟨3, ![1, 1600, 2]⟩
abbrev S9600x1600x2 : Shape := ⟨3, ![9600, 1600, 2]⟩
abbrev S9600x1600x1 : Shape := ⟨3, ![9600, 1600, 1]⟩
abbrev S1x1600 : Shape := ⟨2, ![1, 1600]⟩
abbrev S32x300x1600 : Shape := ⟨3, ![32, 300, 1600]⟩

abbrev nBuf : Space → Nat
  | .hbm => 191
  | .vmem => 0
  | .smem => 0
  | _ => 0

abbrev hbmTy0_0 (i : Nat) : BufTy := match i % 128 with
  | 0 => ⟨S32x300x92, .f32⟩
  | 1 => ⟨S32x300x4, .f32⟩
  | 2 => ⟨S32x50, .i32⟩
  | 3 => ⟨S32x50x4, .f32⟩
  | 4 => ⟨S9600x92, .f32⟩
  | 5 => ⟨S_, .f32⟩
  | 6 => ⟨S9600, .f32⟩
  | 7 => ⟨S_, .f32⟩
  | 8 => ⟨S9600, .f32⟩
  | 9 => ⟨S9600, .f32⟩
  | 10 => ⟨S9600x1, .f32⟩
  | 11 => ⟨S9600x92, .f32⟩
  | 12 => ⟨S9600x92, .f32⟩
  | 13 => ⟨S9600x92, .f32⟩
  | 14 => ⟨S_, .f32⟩
  | 15 => ⟨S9600, .f32⟩
  | 16 => ⟨S9600x1, .f32⟩
  | 17 => ⟨S9600x92, .f32⟩
  | 18 => ⟨S9600x92, .f32⟩
  | 19 => ⟨S9600x4, .f32⟩
  | 20 => ⟨S1600, .i32⟩
  | 21 => ⟨S1600x4, .f32⟩
  | 22 => ⟨S_, .i32⟩
  | 23 => ⟨S1600, .i32⟩
  | 24 => ⟨S1600, .i1⟩
  | 25 => ⟨S_, .i32⟩
  | 26 => ⟨S1600, .i32⟩
  | 27 => ⟨S1600, .i32⟩
  | 28 => ⟨S1600, .i32⟩
  | 29 => ⟨S1600x1, .i32⟩
  | 30 => ⟨S9600x1600, .f32⟩
  | 31 => ⟨S9600x1600, .f32⟩
  | 32 => ⟨S9600x1x4, .f32⟩
  | 33 => ⟨S1x1600x4, .f32⟩
  | 34 => ⟨S9600x1600x4, .f32⟩
  | 35 => ⟨S9600x1600x4, .f32⟩
  | 36 => ⟨S9600x1600x4, .f32⟩
  | 37 => ⟨S9600x1600x4, .f32⟩
  | 38 => ⟨S_, .f32⟩
  | 39 => ⟨S9600x1600, .f32⟩
  | 40 => ⟨S9600x1, .f32⟩
  | 41 => ⟨S9600, .f32⟩
  | 42 => ⟨S9600x1, .f32⟩
  | 43 => ⟨S9600, .f32⟩
  | 44 => ⟨S9600x1, .f32⟩
  | 45 => ⟨S9600, .f32⟩
  | 46 => ⟨S9600x1, .f32⟩
  | 47 => ⟨S9600, .f32⟩
  | 48 => ⟨S_, .f32⟩
  | 49 => ⟨S9600, .f32⟩
  | 50 => ⟨S9600, .f32⟩
  | 51 => ⟨S9600, .f32⟩
  | 52 => ⟨S_, .f32⟩
  | 53 => ⟨S9600, .f32⟩
  | 54 => ⟨S9600, .f32⟩
  | 55 => ⟨S9600, .f32⟩
  | 56 => ⟨S_, .f32⟩
  | 57 => ⟨S9600, .f32⟩
  | 58 => ⟨S9600, .f32⟩
  | 59 => ⟨S9600, .f32⟩
  | 60 => ⟨S_, .f32⟩
  | 61 => ⟨S9600, .f32⟩
  | 62 => ⟨S9600, .f32⟩
  | 63 => ⟨S9600, .f32⟩
  | 64 => ⟨S9600x1, .f32⟩
  | 65 => ⟨S9600x1, .f32⟩
  | 66 => ⟨S9600x1, .f32⟩
  | 67 => ⟨S9600x1, .f32⟩
  | 68 => ⟨S9600x4, .f32⟩
  | 69 => ⟨S1600x1, .f32⟩
  | 70 => ⟨S1600, .f32⟩
  | 71 => ⟨S1600x1, .f32⟩
  | 72 => ⟨S1600, .f32⟩
  | 73 => ⟨S1600x1, .f32⟩
  | 74 => ⟨S1600, .f32⟩
  | 75 => ⟨S1600x1, .f32⟩
  | 76 => ⟨S1600, .f32⟩
  | 77 => ⟨S_, .f32⟩
  | 78 => ⟨S1600, .f32⟩
  | 79 => ⟨S1600, .f32⟩
  | 80 => ⟨S1600, .f32⟩
  | 81 => ⟨S_, .f32⟩
  | 82 => ⟨S1600, .f32⟩
  | 83 => ⟨S1600, .f32⟩
  | 84 => ⟨S1600, .f32⟩
  | 85 => ⟨S_, .f32⟩
  | 86 => ⟨S1600, .f32⟩
  | 87 => ⟨S1600, .f32⟩
  | 88 => ⟨S1600, .f32⟩
  | 89 => ⟨S_, .f32⟩
  | 90 => ⟨S1600, .f32⟩
  | 91 => ⟨S1600, .f32⟩
  | 92 => ⟨S1600, .f32⟩
  | 93 => ⟨S1600x1, .f32⟩
  | 94 => ⟨S1600x1, .f32⟩
  | 95 => ⟨S1600x1, .f32⟩
  | 96 => ⟨S1600x1, .f32⟩
  | 97 => ⟨S1600x4, .f32⟩
  | 98 => ⟨S9600x1, .f32⟩
  | 99 => ⟨S9600, .f32⟩
  | 100 => ⟨S9600x1, .f32⟩
  | 101 => ⟨S9600, .f32⟩
  | 102 => ⟨S9600, .f32⟩
  | 103 => ⟨S9600x1, .f32⟩
  | 104 => ⟨S9600, .f32⟩
  | 105 => ⟨S9600x1, .f32⟩
  | 106 => ⟨S9600, .f32⟩
  | 107 => ⟨S9600, .f32⟩
  | 108 => ⟨S9600, .f32⟩
  | 109 => ⟨S1600x1, .f32⟩
  | 110 => ⟨S1600, .f32⟩
  | 111 => ⟨S1600x1, .f32⟩
  | 112 => ⟨S1600, .f32⟩
  | 113 => ⟨S1600, .f32⟩
  | 114 => ⟨S1600x1, .f32⟩
  | 115 => ⟨S1600, .f32⟩
  | 116 => ⟨S1600x1, .f32⟩
  | 117 => ⟨S1600, .f32⟩
  | 118 => ⟨S1600, .f32⟩
  | 119 => ⟨S1600, .f32⟩
  | 120 => ⟨S9600x2, .f32⟩
  | 121 => ⟨S9600x1x2, .f32⟩
  | 122 => ⟨S1600x2, .f32⟩
  | 123 => ⟨S1x1600x2, .f32⟩
  | 124 => ⟨S9600x1600x2, .f32⟩
  | 125 => ⟨S9600x1600x2, .f32⟩
  | 126 => ⟨S9600x1600x2, .f32⟩
  | 127 => ⟨S9600x2, .f32⟩
  | _ => ⟨S32x300x92, .f32⟩

abbrev hbmTy0_1 (i : Nat) : BufTy := match i % 128 with
  | 0 => ⟨S9600x1x2, .f32⟩
  | 1 => ⟨S1600x2, .f32⟩
  | 2 => ⟨S1x1600x2, .f32⟩
  | 3 => ⟨S9600x1600x2, .f32⟩
  | 4 => ⟨S9600x1600x2, .f32⟩
  | 5 => ⟨S9600x1600x2, .f32⟩
  | 6 => ⟨S9600x1600x2, .f32⟩
  | 7 => ⟨S_, .f32⟩
  | 8 => ⟨S_, .f32⟩
  | 9 => ⟨S9600x1600x2, .f32⟩
  | 10 => ⟨S9600x1600x2, .f32⟩
  | 11 => ⟨S9600x1600x1, .f32⟩
  | 12 => ⟨S9600x1600, .f32⟩
  | 13 => ⟨S9600x1600x1, .f32⟩
  | 14 => ⟨S9600x1600, .f32⟩
  | 15 => ⟨S9600x1600, .f32⟩
  | 16 => ⟨S9600x1, .f32⟩
  | 17 => ⟨S1x1600, .f32⟩
  | 18 => ⟨S9600x1600, .f32⟩
  | 19 => ⟨S9600x1600, .f32⟩
  | 20 => ⟨S9600x1600, .f32⟩
  | 21 => ⟨S9600x1600, .f32⟩
  | 22 => ⟨S9600x1600, .f32⟩
  | 23 => ⟨S9600x2, .f32⟩
  | 24 => ⟨S9600x1x2, .f32⟩
  | 25 => ⟨S1600x2, .f32⟩
  | 26 => ⟨S1x1600x2, .f32⟩
  | 27 => ⟨S9600x1600x2, .f32⟩
  | 28 => ⟨S9600x1600x2, .f32⟩
  | 29 => ⟨S9600x1600x2, .f32⟩
  | 30 => ⟨S9600x2, .f32⟩
  | 31 => ⟨S9600x1x2, .f32⟩
  | 32 => ⟨S1600x2, .f32⟩
  | 33 => ⟨S1x1600x2, .f32⟩
  | 34 => ⟨S9600x1600x2, .f32⟩
  | 35 => ⟨S9600x1600x2, .f32⟩
  | 36 => ⟨S9600x1600x2, .f32⟩
  | 37 => ⟨S9600x1600x2, .f32⟩
  | 38 => ⟨S_, .f32⟩
  | 39 => ⟨S_, .f32⟩
  | 40 => ⟨S9600x1600x2, .f32⟩
  | 41 => ⟨S9600x1600x2, .f32⟩
  | 42 => ⟨S9600x1600x1, .f32⟩
  | 43 => ⟨S9600x1600, .f32⟩
  | 44 => ⟨S9600x1600x1, .f32⟩
  | 45 => ⟨S9600x1600, .f32⟩
  | 46 => ⟨S9600x1600, .f32⟩
  | 47 => ⟨S9600x1600, .f32⟩
  | 48 => ⟨S9600x1600, .f32⟩
  | 49 => ⟨S9600x1600, .f32⟩
  | 50 => ⟨S9600x1600, .f32⟩
  | 51 => ⟨S_, .f32⟩
  | 52 => ⟨S9600x1600, .f32⟩
  | 53 => ⟨S9600x1600, .f32⟩
  | 54 => ⟨S_, .f32⟩
  | 55 => ⟨S9600x1600, .f32⟩
  | 56 => ⟨S9600x1600, .f32⟩
  | 57 => ⟨S9600x1600, .f32⟩
  | 58 => ⟨S_, .f32⟩
  | 59 => ⟨S9600x1600, .f32⟩
  | 60 => ⟨S9600x1600, .f32⟩
  | 61 => ⟨S9600x1600, .f32⟩
  | 62 => ⟨S32x300x1600, .f32⟩
  | _ => ⟨S32x300x92, .f32⟩

abbrev hbmTy (i : Nat) : BufTy := match i / 128 with
  | 0 => hbmTy0_0 i
  | 1 => hbmTy0_1 i
  | _ => ⟨S32x300x92, .f32⟩

abbrev bufTy : (tb : Table) → Fin (tcTables nBuf tb) → BufTy
  | .hbm, ⟨i, _⟩ => hbmTy i
  | _, _ => ⟨S32x300x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_9 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_11 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_cst_12 : Ref sig .tc := ⟨.hbm, 135, rfl⟩
abbrev main_call0_v0 : Ref sig .tc := ⟨.hbm, 136, rfl⟩
abbrev main_call0_v1 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_cst_13 : Ref sig .tc := ⟨.hbm, 166, rfl⟩
abbrev main_call1_v0 : Ref sig .tc := ⟨.hbm, 167, rfl⟩
abbrev main_call1_v1 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_cst_14 : Ref sig .tc := ⟨.hbm, 179, rfl⟩
abbrev main_v155 : Ref sig .tc := ⟨.hbm, 180, rfl⟩
abbrev main_v156 : Ref sig .tc := ⟨.hbm, 181, rfl⟩
abbrev main_cst_15 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_cst_16 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩

abbrev nD : Nat := 1
abbrev τ : Topo := Topo.v7x

variable {F : FTy → Type} [FloatOps F]

class Facts₀ : Prop where
  shapeCasts_S32x300x92_S9600x92 : S32x300x92.ShapeCasts S9600x92
  reducesTo_S9600x92_S9600_d1 : S9600x92.ReducesTo [1] S9600
  h_S_ : 0 < S_.numel
  bcast_S_S9600 : S_.BroadcastsInDim S9600 (![] : Fin 0 → Fin S9600.rank)
  bcast_S9600_S9600x1_0 : S9600.BroadcastsInDim S9600x1 (![0] : Fin 1 → Fin S9600x1.rank)
  bcast_S9600x1_S9600x92_0_1 : S9600x1.BroadcastsInDim S9600x92 (![0, 1] : Fin 2 → Fin S9600x92.rank)
  shapeCasts_S32x300x4_S9600x4 : S32x300x4.ShapeCasts S9600x4
  shapeCasts_S32x50_S1600 : S32x50.ShapeCasts S1600
  shapeCasts_S32x50x4_S1600x4 : S32x50x4.ShapeCasts S1600x4
  bcast_S_S1600 : S_.BroadcastsInDim S1600 (![] : Fin 0 → Fin S1600.rank)
  bcast_S1600_S1600x1_0 : S1600.BroadcastsInDim S1600x1 (![0] : Fin 1 → Fin S1600x1.rank)
  bcast_S9600x4_S9600x1x4_0_2 : S9600x4.BroadcastsInDim S9600x1x4 (![0, 2] : Fin 2 → Fin S9600x1x4.rank)
  bcast_S1600x4_S1x1600x4_1_2 : S1600x4.BroadcastsInDim S1x1600x4 (![1, 2] : Fin 2 → Fin S1x1600x4.rank)
  bcast_S9600x1x4_S9600x1600x4_0_1_2 : S9600x1x4.BroadcastsInDim S9600x1600x4 (![0, 1, 2] : Fin 3 → Fin S9600x1600x4.rank)
  bcast_S1x1600x4_S9600x1600x4_0_1_2 : S1x1600x4.BroadcastsInDim S9600x1600x4 (![0, 1, 2] : Fin 3 → Fin S9600x1600x4.rank)
  reducesTo_S9600x1600x4_S9600x1600_d2 : S9600x1600x4.ReducesTo [2] S9600x1600
  slices_S9600x4_S9600x1_0_0 : S9600x4.Slices ![0, 0] S9600x1
  shapeCasts_S9600x1_S9600 : S9600x1.ShapeCasts S9600
  slices_S9600x4_S9600x1_0_1 : S9600x4.Slices ![0, 1] S9600x1
  slices_S9600x4_S9600x1_0_2 : S9600x4.Slices ![0, 2] S9600x1
  slices_S9600x4_S9600x1_0_3 : S9600x4.Slices ![0, 3] S9600x1
  concatenates_S9600x1_S9600x1_S9600x1_S9600x1_S9600x4_d1 : Shape.Concatenates [S9600x1, S9600x1, S9600x1, S9600x1] S9600x4 1
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  concatenates_S1600x1_S1600x1_S1600x1_S1600x1_S1600x4_d1 : Shape.Concatenates [S1600x1, S1600x1, S1600x1, S1600x1] S1600x4 1
  slices_S9600x4_S9600x2_0_0 : S9600x4.Slices ![0, 0] S9600x2
  bcast_S9600x2_S9600x1x2_0_2 : S9600x2.BroadcastsInDim S9600x1x2 (![0, 2] : Fin 2 → Fin S9600x1x2.rank)
  slices_S1600x4_S1600x2_0_0 : S1600x4.Slices ![0, 0] S1600x2
  bcast_S1600x2_S1x1600x2_1_2 : S1600x2.BroadcastsInDim S1x1600x2 (![1, 2] : Fin 2 → Fin S1x1600x2.rank)
  bcast_S9600x1x2_S9600x1600x2_0_1_2 : S9600x1x2.BroadcastsInDim S9600x1600x2 (![0, 1, 2] : Fin 3 → Fin S9600x1600x2.rank)
  bcast_S1x1600x2_S9600x1600x2_0_1_2 : S1x1600x2.BroadcastsInDim S9600x1600x2 (![0, 1, 2] : Fin 3 → Fin S9600x1600x2.rank)
  slices_S9600x4_S9600x2_0_2 : S9600x4.Slices ![0, 2] S9600x2
  slices_S1600x4_S1600x2_0_2 : S1600x4.Slices ![0, 2] S1600x2
  bcast_S_S9600x1600x2 : S_.BroadcastsInDim S9600x1600x2 (![] : Fin 0 → Fin S9600x1600x2.rank)
  slices_S9600x1600x2_S9600x1600x1_0_0_0 : S9600x1600x2.Slices ![0, 0, 0] S9600x1600x1
  shapeCasts_S9600x1600x1_S9600x1600 : S9600x1600x1.ShapeCasts S9600x1600
  slices_S9600x1600x2_S9600x1600x1_0_0_1 : S9600x1600x2.Slices ![0, 0, 1] S9600x1600x1
  bcast_S1600_S1x1600_1 : S1600.BroadcastsInDim S1x1600 (![1] : Fin 1 → Fin S1x1600.rank)
  bcast_S9600x1_S9600x1600_0_1 : S9600x1.BroadcastsInDim S9600x1600 (![0, 1] : Fin 2 → Fin S9600x1600.rank)
  bcast_S1x1600_S9600x1600_0_1 : S1x1600.BroadcastsInDim S9600x1600 (![0, 1] : Fin 2 → Fin S9600x1600.rank)
  bcast_S_S9600x1600 : S_.BroadcastsInDim S9600x1600 (![] : Fin 0 → Fin S9600x1600.rank)
  shapeCasts_S9600x1600_S32x300x1600 : S9600x1600.ShapeCasts S32x300x1600
  gather_S9600x92_S1600x1_S9600x1600_0_1_n_n_1_1_96001_wf : GatherDims.WF S9600x92 S1600x1 S9600x1600 [0] [1] [] [1] [] 1 ![9600, 1]

variable [Facts₀]

def gather_S9600x92_S1600x1_S9600x1600_0_1_n_n_1_1_96001 : GatherDims S9600x92 S1600x1 S9600x1600 where
  offsetDims := [0]
  collapsedSliceDims := [1]
  operandBatchingDims := []
  startIndicesBatchingDims := []
  startIndexMap := [1]
  indexVectorDim := 1
  sliceSizes := ![9600, 1]
  wf := gather_S9600x92_S1600x1_S9600x1600_0_1_n_n_1_1_96001_wf

class Facts : Prop extends Facts₀ where

variable [Facts]
-- ==== Proof.KBody.lean ====
/-
  The kernel's body, run once on whole staging buffers.

  The body loads the five input blocks (480 rows of logits, 480 predicted boxes, the 1600 target boxes in both
  forms, the 92 × 1600 class indicator), computes the 480 × 1600 block of costs, and stores it over the whole
  output buffer; it also loads the output buffer before storing, a value it never uses. So after the body the
  output buffer holds ONE piece, the whole rectangle, at `blockCost` of the five input blocks, and the inputs are
  as they were.
-/
import proofs.«408791_j987842478748_1_alg».proof.Proof.Gen.Kernel.Launch
import proofs.«408791_j987842478748_1_alg».proof.Proof.Gen.Kernel.Skeleton
import proofs.«408791_j987842478748_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rLogits : Rect S480x92 := Rect.unit (s := S480x92) ![0, 0] S480x92.size inb_S480x92_S480x92_0_0
abbrev rPBox : Rect S480x4 := Rect.unit (s := S480x4) ![0, 0] S480x4.size inb_S480x4_S480x4_0_0
abbrev rTBox : Rect S1600x4 := Rect.unit (s := S1600x4) ![0, 0] S1600x4.size inb_S1600x4_S1600x4_0_0
abbrev rOneHot : Rect S92x1600 := Rect.unit (s := S92x1600) ![0, 0] S92x1600.size inb_S92x1600_S92x1600_0_0
abbrev rOut : Rect S480x1600 := Rect.unit (s := S480x1600) ![0, 0] S480x1600.size inb_S480x1600_S480x1600_0_0

/-! ## The stored value as one function of the five loaded blocks -/

/-- The 480 × 1600 block of costs from the loaded logits `x0`, predicted boxes `x1`, target boxes `x2` (raw) and
    `x3` (corners), and class indicator `x4`: the body's pure values composed in the order the body computes them. -/
@[reducible] def blockCost (x0 : Vec F S480x92 .f32) (x1 : Vec F S480x4 .f32) (x2 x3 : Vec F S1600x4 .f32)
    (x4 : Vec F S92x1600 .f32) : FVec F S480x1600 .f32 :=
  k0_pay25 (k0_pay1 x0 x4)
    (k0_pay6 (k0_pay2 x1) (k0_pay3 x2) (k0_pay4 x1 x2) (k0_pay5 x1 x2))
    (k0_pay11 (k0_pay2 x1)) (k0_pay12 (k0_pay2 x1)) (k0_pay13 (k0_pay2 x1)) (k0_pay14 (k0_pay2 x1))
    (k0_pay16 x3) (k0_pay17 x3) (k0_pay18 x3) (k0_pay19 x3)
    (k0_pay20 (k0_pay2 x1)) (k0_pay21 x3) (k0_pay22 (k0_pay2 x1) x3) (k0_pay23 (k0_pay2 x1) x3) (k0_pay24 (k0_pay2 x1))

/-- The output window's staging buffer after the body: its one store, over the whole buffer. -/
def outBlock (x0 : Vec F S480x92 .f32) (x1 : Vec F S480x4 .f32) (x2 x3 : Vec F S1600x4 .f32)
    (x4 : Vec F S92x1600 .f32) : Vec F S480x1600 .f32 :=
  View.canon [⟨rOut, blockCost (View.ld x0 rLogits) (View.ld x1 rPBox) (View.ld x2 rTBox) (View.ld x3 rTBox) (View.ld x4 rOneHot)⟩]

/-- The one store covers the buffer. -/
theorem outCover (p0 : Vec F S480x1600 .f32) (y : S480x1600.Idx) :
    ∃ pc ∈ ([⟨rOut, p0⟩] : List (View.Piece (Elt F) S480x1600 .f32)), y ∈ pc.1.set :=
  View.cover_of_tiled [⟨rOut, p0⟩] S480x1600.size (by rfl) y

/-! ## The body's triple -/

set_option maxHeartbeats 4000000 in
/-- The body on whole staging memrefs — the five inputs' at read contents, the output's at anything — runs to the
    continuation holding the inputs' as they were and the output's at `outBlock` of the inputs'. -/
theorem sound_kernel (c : Dev nD) (E : Set ℕ) (i : grid0.Coords)
    (arg1 : Memref sig .tc .vmem S480x92 .f32) (harg1 : arg1.IsWhole) (arg2 : Memref sig .tc .vmem S480x4 .f32) (harg2 : arg2.IsWhole)
    (arg3 : Memref sig .tc .vmem S1600x4 .f32) (harg3 : arg3.IsWhole) (arg4 : Memref sig .tc .vmem S1600x4 .f32) (harg4 : arg4.IsWhole)
    (arg5 : Memref sig .tc .vmem S92x1600 .f32) (harg5 : arg5.IsWhole) (arg6 : Memref sig .tc .vmem S480x1600 .f32) (harg6 : arg6.IsWhole)
    (x0 : Vec F S480x92 .f32) (x1 : Vec F S480x4 .f32) (x2 x3 : Vec F S1600x4 .f32) (x4 : Vec F S92x1600 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__cost_kernel i arg1 harg1 arg2 harg2 arg3 harg3 arg4 harg4 arg5 harg5 arg6 harg6) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

end Cert.Kernel.Body

end
-- ==== Proof.KFrame.lean ====
/-
  The program around its one launch: four reshapes, the class indicator (six operations), the targets' corners
  (twenty-nine operations, the last one joining four columns), the launch over twenty grid points, and the reshape
  of the result.

  None of the four arguments is written by any of these operations, and none is staged by a window (the windows
  stage the reshaped and computed arrays), so each argument ends as it was launched. At grid point `t` the body finds
  every input window's block in its staging buffer — fetched at that point or, for the three windows whose block
  index never moves, left there since the first — and leaves the output buffer at `outBlock` of the five input blocks.
-/
import proofs.«408791_j987842478748_1_alg».proof.Proof.KBody

set_option maxRecDepth 16384

noncomputable section

namespace Cert.Kernel.Frame

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- Core `c`'s buffer contents when the launch is reached: after the three stretches of host operations before it. -/
abbrev V0 (c : Dev nD) : Valuation τ sig (Elt F) :=
  StableHlo.after (List.flatten [hostOps0, hostOps0_1, hostOps0_2]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host operations before the launch, the launch, and the reshape after it: it reduces to the
    launch continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the launch touches the launch's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not: for any proof
    data whose array is the launch's and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run of the launch -/

/-- From a run that ends with every buffer outside the launch as the reshape after it leaves it, the four arguments
    end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The launch's proof data -/

/-- On core `c`: the arrays as the launch finds them; after the body at point `t` each input's buffer at its block and
    the output's at `outBlock` of the five input blocks; nothing kept between points beyond that. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
/-- The output window's buffer after the body at point `t`. -/
theorem after0_5 (c : Dev nD) (t : Fin cfg0.N) :
    (dats m 0 c).after 5 t = outBlock (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has each array of the launch at what the proof data gives and every other buffer as the reshape after the launch
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its four arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frame

end
-- ==== Proof.KIBody.lean ====
/-
  The kernel's body, run once on whole staging buffers.

  The body loads the five input blocks (480 rows of logits, 480 predicted boxes, the 1600 target boxes in both
  forms, the 92 × 1600 class indicator), computes the 480 × 1600 block of costs, and stores it over the whole
  output buffer; it also loads the output buffer before storing, a value it never uses. So after the body the
  output buffer holds ONE piece, the whole rectangle, at `blockCost` of the five input blocks, and the inputs are
  as they were.
-/
import proofs.«408791_j987842478748_1_alg».proof.Proof.Gen.KernelIdeal.Launch
import proofs.«408791_j987842478748_1_alg».proof.Proof.Gen.KernelIdeal.Skeleton
import proofs.«408791_j987842478748_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rLogits : Rect S480x92 := Rect.unit (s := S480x92) ![0, 0] S480x92.size inb_S480x92_S480x92_0_0
abbrev rPBox : Rect S480x4 := Rect.unit (s := S480x4) ![0, 0] S480x4.size inb_S480x4_S480x4_0_0
abbrev rTBox : Rect S1600x4 := Rect.unit (s := S1600x4) ![0, 0] S1600x4.size inb_S1600x4_S1600x4_0_0
abbrev rOneHot : Rect S92x1600 := Rect.unit (s := S92x1600) ![0, 0] S92x1600.size inb_S92x1600_S92x1600_0_0
abbrev rOut : Rect S480x1600 := Rect.unit (s := S480x1600) ![0, 0] S480x1600.size inb_S480x1600_S480x1600_0_0

/-! ## The stored value as one function of the five loaded blocks -/

/-- The 480 × 1600 block of costs from the loaded logits `x0`, predicted boxes `x1`, target boxes `x2` (raw) and
    `x3` (corners), and class indicator `x4`: the body's pure values composed in the order the body computes them. -/
@[reducible] def blockCost (x0 : Vec F S480x92 .f32) (x1 : Vec F S480x4 .f32) (x2 x3 : Vec F S1600x4 .f32)
    (x4 : Vec F S92x1600 .f32) : FVec F S480x1600 .f32 :=
  k0_pay25 (k0_pay1 x0 x4)
    (k0_pay6 (k0_pay2 x1) (k0_pay3 x2) (k0_pay4 x1 x2) (k0_pay5 x1 x2))
    (k0_pay11 (k0_pay2 x1)) (k0_pay12 (k0_pay2 x1)) (k0_pay13 (k0_pay2 x1)) (k0_pay14 (k0_pay2 x1))
    (k0_pay16 x3) (k0_pay17 x3) (k0_pay18 x3) (k0_pay19 x3)
    (k0_pay20 (k0_pay2 x1)) (k0_pay21 x3) (k0_pay22 (k0_pay2 x1) x3) (k0_pay23 (k0_pay2 x1) x3) (k0_pay24 (k0_pay2 x1))

/-- The output window's staging buffer after the body: its one store, over the whole buffer. -/
def outBlock (x0 : Vec F S480x92 .f32) (x1 : Vec F S480x4 .f32) (x2 x3 : Vec F S1600x4 .f32)
    (x4 : Vec F S92x1600 .f32) : Vec F S480x1600 .f32 :=
  View.canon [⟨rOut, blockCost (View.ld x0 rLogits) (View.ld x1 rPBox) (View.ld x2 rTBox) (View.ld x3 rTBox) (View.ld x4 rOneHot)⟩]

/-- The one store covers the buffer. -/
theorem outCover (p0 : Vec F S480x1600 .f32) (y : S480x1600.Idx) :
    ∃ pc ∈ ([⟨rOut, p0⟩] : List (View.Piece (Elt F) S480x1600 .f32)), y ∈ pc.1.set :=
  View.cover_of_tiled [⟨rOut, p0⟩] S480x1600.size (by rfl) y

/-! ## The body's triple -/

set_option maxHeartbeats 4000000 in
/-- The body on whole staging memrefs — the five inputs' at read contents, the output's at anything — runs to the
    continuation holding the inputs' as they were and the output's at `outBlock` of the inputs'. -/
theorem sound_kernel (c : Dev nD) (E : Set ℕ) (i : grid0.Coords)
    (arg1 : Memref sig .tc .vmem S480x92 .f32) (harg1 : arg1.IsWhole) (arg2 : Memref sig .tc .vmem S480x4 .f32) (harg2 : arg2.IsWhole)
    (arg3 : Memref sig .tc .vmem S1600x4 .f32) (harg3 : arg3.IsWhole) (arg4 : Memref sig .tc .vmem S1600x4 .f32) (harg4 : arg4.IsWhole)
    (arg5 : Memref sig .tc .vmem S92x1600 .f32) (harg5 : arg5.IsWhole) (arg6 : Memref sig .tc .vmem S480x1600 .f32) (harg6 : arg6.IsWhole)
    (x0 : Vec F S480x92 .f32) (x1 : Vec F S480x4 .f32) (x2 x3 : Vec F S1600x4 .f32) (x4 : Vec F S92x1600 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__cost_kernel i arg1 harg1 arg2 harg2 arg3 harg3 arg4 harg4 arg5 harg5 arg6 harg6) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

end Cert.KernelIdeal.Body

end
-- ==== Proof.KIFrame.lean ====
/-
  The program around its one launch: four reshapes, the class indicator (six operations), the targets' corners
  (twenty-nine operations, the last one joining four columns), the launch over twenty grid points, and the reshape
  of the result.

  None of the four arguments is written by any of these operations, and none is staged by a window (the windows
  stage the reshaped and computed arrays), so each argument ends as it was launched. At grid point `t` the body finds
  every input window's block in its staging buffer — fetched at that point or, for the three windows whose block
  index never moves, left there since the first — and leaves the output buffer at `outBlock` of the five input blocks.
-/
import proofs.«408791_j987842478748_1_alg».proof.Proof.KIBody

set_option maxRecDepth 16384

noncomputable section

namespace Cert.KernelIdeal.Frame

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- Core `c`'s buffer contents when the launch is reached: after the three stretches of host operations before it. -/
abbrev V0 (c : Dev nD) : Valuation τ sig (Elt F) :=
  StableHlo.after (List.flatten [hostOps0, hostOps0_1, hostOps0_2]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host operations before the launch, the launch, and the reshape after it: it reduces to the
    launch continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the launch touches the launch's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not: for any proof
    data whose array is the launch's and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run of the launch -/

/-- From a run that ends with every buffer outside the launch as the reshape after it leaves it, the four arguments
    end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The launch's proof data -/

/-- On core `c`: the arrays as the launch finds them; after the body at point `t` each input's buffer at its block and
    the output's at `outBlock` of the five input blocks; nothing kept between points beyond that. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
/-- The output window's buffer after the body at point `t`. -/
theorem after0_5 (c : Dev nD) (t : Fin cfg0.N) :
    (dats m 0 c).after 5 t = outBlock (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has each array of the launch at what the proof data gives and every other buffer as the reshape after the launch
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its four arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frame

end
-- ==== Proof.CostSpec.lean ====
/-
  The matching cost of every predicted box against every target box, as ONE function of the four inputs.

  For a query row `r` (one of 32·300 predictions) and a target column `j` (one of 32·50 targets) the cost is
      5 · L1(p_r, t_j)  +  1 · (−softmax(logits_r)[label_j])  +  2 · (−GIoU(p_r, t_j)),
  where a box is (centre x, centre y, width, height), its corners are centre ∓ ½·extent, the L1 distance is taken
  on the raw four numbers, and the generalised IoU is  inter/union − (hull − union)/hull  with every difference of
  corners clipped below at zero. Everything is an exact operation on the extended reals; the literals are kept as
  the words the programs print, so that a word both programs carry is never evaluated.
-/
import Idealize.ShloMosaic.PureOps.Ideal
import Idealize.ShloMosaic.Lib.ValueIdx

noncomputable section

namespace Cert.CostSpec

open Idealize.ShloMosaic Idealize.ShloMosaic.ValueIdx

abbrev S32x300x92 : Shape := ⟨3, ![32, 300, 92]⟩
abbrev S32x300x4 : Shape := ⟨3, ![32, 300, 4]⟩
abbrev S32x50 : Shape := ⟨2, ![32, 50]⟩
abbrev S32x50x4 : Shape := ⟨3, ![32, 50, 4]⟩
abbrev S9600x92 : Shape := ⟨2, ![9600, 92]⟩
abbrev S9600x4 : Shape := ⟨2, ![9600, 4]⟩
abbrev S1600 : Shape := ⟨1, ![1600]⟩
abbrev S1600x4 : Shape := ⟨2, ![1600, 4]⟩
abbrev S9600x1600 : Shape := ⟨2, ![9600, 1600]⟩
abbrev S32x300x1600 : Shape := ⟨3, ![32, 300, 1600]⟩

/-! ## The literals, as printed words -/

/-- −∞, the neutral element the row maximum starts from. -/
abbrev negInf : EReal := Ideal.ofBits .f32 0xFF800000#32
/-- 0. -/
abbrev zero : EReal := Ideal.ofBits .f32 0x00000000#32
/-- ½. -/
abbrev half : EReal := Ideal.ofBits .f32 0x3F000000#32
/-- The weight 1 of the class term. -/
abbrev one : EReal := Ideal.ofBits .f32 0x3F800000#32
/-- The weight 2 of the GIoU term. -/
abbrev two : EReal := Ideal.ofBits .f32 0x40000000#32
/-- The weight 5 of the L1 term. -/
abbrev five : EReal := Ideal.ofBits .f32 0x40A00000#32

/-! ## Softmax of one row of 92 logits -/

/-- The row's maximum: the fold of `max` from −∞ over the 92 classes. -/
def rowMax (l : Fin 92 → EReal) : EReal := (Finset.univ : Finset (Fin 92)).fold max negInf l

/-- exp (logit − the row's maximum). -/
def shifted (l : Fin 92 → EReal) (c : Fin 92) : EReal := Ideal.exp (l c - rowMax l)

/-- The softmax probability of class `c`. -/
def prob (l : Fin 92 → EReal) (c : Fin 92) : EReal := Ideal.div (shifted l c) (∑ k : Fin 92, shifted l k)

/-! ## Two boxes (centre x, centre y, width, height) -/

/-- The L1 distance of the raw parameters: the sum over the four of |p k − t k|, from 0. -/
def l1 (p t : Fin 4 → EReal) : EReal := zero + ∑ k : Fin 4, max (p k - t k) (-(p k - t k))

def left (b : Fin 4 → EReal) : EReal := b 0 - half * b 2
def top (b : Fin 4 → EReal) : EReal := b 1 - half * b 3
def right (b : Fin 4 → EReal) : EReal := b 0 + half * b 2
def bottom (b : Fin 4 → EReal) : EReal := b 1 + half * b 3

/-- A box's area from its corners. -/
def area (b : Fin 4 → EReal) : EReal := (right b - left b) * (bottom b - top b)

/-- The intersection's area: each side clipped below at 0. -/
def inter (p t : Fin 4 → EReal) : EReal :=
  max zero (min (right p) (right t) - max (left p) (left t)) * max zero (min (bottom p) (bottom t) - max (top p) (top t))

def union (p t : Fin 4 → EReal) : EReal := area p + area t - inter p t

/-- The area of the smallest box enclosing both. -/
def hull (p t : Fin 4 → EReal) : EReal :=
  max zero (max (right p) (right t) - min (left p) (left t)) * max zero (max (bottom p) (bottom t) - min (top p) (top t))

/-- The generalised IoU. -/
def giou (p t : Fin 4 → EReal) : EReal :=
  Ideal.div (inter p t) (union p t) - Ideal.div (hull p t - union p t) (hull p t)

/-- The cost of matching a prediction (its logits `l`, its box `p`) with a target (its class `c`, its box `t`). -/
def cost (l : Fin 92 → EReal) (p t : Fin 4 → EReal) (c : Fin 92) : EReal :=
  five * l1 p t + one * (-prob l c) + two * (-giou p t)

/-! ## The whole matrix -/

/-- A label word as a class: its unsigned value (reduced mod 92, which changes nothing for a label in range). -/
def labelOf (w : BitVec 32) : Fin 92 := ⟨w.toNat % 92, Nat.mod_lt _ (by decide)⟩

/-- Every label is a class index: as an unsigned word it is below 92 (so it is also non-negative as a signed one). -/
def LabelsInRange (A2 : S32x50.Idx → BitVec 32) : Prop := ∀ i, (A2 i).toNat < 92

/-- The cost matrix over the flattened predictions (rows) and the flattened targets (columns). -/
def cost2d (L : S9600x92.Idx → EReal) (P : S9600x4.Idx → EReal) (lab : S1600.Idx → BitVec 32) (T : S1600x4.Idx → EReal) :
    S9600x1600.Idx → EReal := fun i =>
  let r : Fin 9600 := ⟨(i 0).val, (i 0).isLt⟩
  let q : Fin 1600 := ⟨(i 1).val, (i 1).isLt⟩
  cost (fun c => L (ix2 r c)) (fun k => P (ix2 r k)) (fun k => T (ix2 q k)) (labelOf (lab (ix1 q)))

/-- The result as a function of the four arguments: flatten the batch axes, take the cost matrix, and give the rows
    their batch axis back. The flattenings are the library's `shapeCast` (row-major), taken with their shape facts. -/
def G (h0 : S32x300x92.ShapeCasts S9600x92) (h1 : S32x300x4.ShapeCasts S9600x4) (h2 : S32x50.ShapeCasts S1600)
    (h3 : S32x50x4.ShapeCasts S1600x4) (ho : S9600x1600.ShapeCasts S32x300x1600)
    (A0 : S32x300x92.Idx → EReal) (A1 : S32x300x4.Idx → EReal) (A2 : S32x50.Idx → BitVec 32) (A3 : S32x50x4.Idx → EReal) :
    S32x300x1600.Idx → EReal :=
  shapeCast S32x300x1600
    (cost2d (shapeCast S9600x92 A0 h0) (shapeCast S9600x4 A1 h1) (shapeCast S1600 A2 h2) (shapeCast S1600x4 A3 h3)) ho

end Cert.CostSpec

end
-- ==== Proof.KIValue.lean ====
/-
  The kernel's result as a function of its arguments.

  Grid point t handles rows 480·t … 480·t + 479 of the 9600 predictions and all 1600 targets: the logits' and the
  predicted boxes' blocks move with t, the three target-side arrays are read whole at every point, and the output
  block is rows 480·t … of the 9600 × 1600 cost matrix. Each entry the body stores is the matching cost of its row's
  prediction with its column's target, so point t writes back block t of the cost matrix; the twenty blocks cover
  it; and the reshape after the launch gives the rows their batch axis back.
-/
import proofs.«408791_j987842478748_1_alg».proof.Proof.KIFrame
import proofs.«408791_j987842478748_1_alg».proof.Proof.CostSpec
import Idealize.ShloMosaic.Lib.ValueIdx
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.Body Cert.KernelIdeal.Frame
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Where each window's block sits at grid point t -/

/-- The block indices, decided over the twenty points: the two prediction-side inputs and the output are at block
    row t, column 0; the three target-side inputs at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block is row 480·t + p of the 9600. -/
def row (t : Fin cfg0.N) (p : Fin 480) : Fin 9600 :=
  ⟨t.val * 480 + p.val, by have h := t.isLt; have hN : cfg0.N = 20 := N_0; omega⟩

/-- The logits' block at point t: rows 480·t … of the flattened logits. -/
theorem logits_blk (c : Dev nD) (t : Fin cfg0.N) (p : Fin 480) (k : Fin 92) :
    (iblk m c 0 t : Vec Ideal S480x92 .f32) (ix2 p k) = (V m c main_v0 : S9600x92.Idx → EReal) (ix2 (row t p) k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 480 + 1 * p.val = t.val * 480 + p.val; rw [e0]; omega
  | ⟨1, _⟩ => show win0_0.index t (1 : Fin 2) * 92 + 1 * k.val = k.val; rw [e1]; omega

/-- The predicted boxes' block at point t: the same rows of the flattened predicted boxes. -/
theorem pbox_blk (c : Dev nD) (t : Fin cfg0.N) (p : Fin 480) (k : Fin 4) :
    (iblk m c 1 t : Vec Ideal S480x4 .f32) (ix2 p k) = (V m c main_v1 : S9600x4.Idx → EReal) (ix2 (row t p) k) := by
  obtain ⟨-, -, e0, e1, -⟩ := idx_facts t
  unfold iblk
  rw [View.read_apply]
  show V m c main_v1 _ = V m c main_v1 _
  congr 1
  funext a
  apply Fin.ext
  match a with
  | ⟨0, _⟩ => show win0_1.index t (0 : Fin 2) * 480 + 1 * p.val = t.val * 480 + p.val; rw [e0]; omega
  | ⟨1, _⟩ => show win0_1.index t (1 : Fin 2) * 4 + 1 * k.val = k.val; rw [e1]; omega

/-- The raw target boxes are read whole at every point. -/
theorem tbox_blk (c : Dev nD) (t : Fin cfg0.N) (q : Fin 1600) (k : Fin 4) :
    (iblk m c 2 t : Vec Ideal S1600x4 .f32) (ix2 q k) = (V m c main_v2 : S1600x4.Idx → EReal) (ix2 q k) := by
  obtain ⟨-, -, -, -, e0, e1, -⟩ := idx_facts t
  unfold iblk
  rw [View.read_apply]
  show V m c main_v2 _ = V m c main_v2 _
  congr 1
  funext a
  apply Fin.ext
  match a with
  | ⟨0, _⟩ => show win0_2.index t (0 : Fin 2) * 1600 + 1 * q.val = q.val; rw [e0]; omega
  | ⟨1, _⟩ => show win0_2.index t (1 : Fin 2) * 4 + 1 * k.val = k.val; rw [e1]; omega

/-- So are the target boxes' corners. -/
theorem corner_blk (c : Dev nD) (t : Fin cfg0.N) (q : Fin 1600) (k : Fin 4) :
    (iblk m c 3 t : Vec Ideal S1600x4 .f32) (ix2 q k) = (V m c main_v29 : S1600x4.Idx → EReal) (ix2 q k) := by
  obtain ⟨-, -, -, -, -, -, e0, e1, -⟩ := idx_facts t
  unfold iblk
  rw [View.read_apply]
  show V m c main_v29 _ = V m c main_v29 _
  congr 1
  funext a
  apply Fin.ext
  match a with
  | ⟨0, _⟩ => show win0_3.index t (0 : Fin 2) * 1600 + 1 * q.val = q.val; rw [e0]; omega
  | ⟨1, _⟩ => show win0_3.index t (1 : Fin 2) * 4 + 1 * k.val = k.val; rw [e1]; omega

/-- And the class indicator. -/
theorem indicator_blk (c : Dev nD) (t : Fin cfg0.N) (cl : Fin 92) (q : Fin 1600) :
    (iblk m c 4 t : Vec Ideal S92x1600 .f32) (ix2 cl q) = (V m c main_v4 : S92x1600.Idx → EReal) (ix2 cl q) := by
  obtain ⟨-, -, -, -, -, -, -, -, e0, e1, -⟩ := idx_facts t
  unfold iblk
  rw [View.read_apply]
  show V m c main_v4 _ = V m c main_v4 _
  congr 1
  funext a
  apply Fin.ext
  match a with
  | ⟨0, _⟩ => show win0_4.index t (0 : Fin 2) * 92 + 1 * cl.val = cl.val; rw [e0]; omega
  | ⟨1, _⟩ => show win0_4.index t (1 : Fin 2) * 1600 + 1 * q.val = q.val; rw [e1]; omega

/-! ## What is taken from the neighbouring modules, as statements -/

/-- One entry of the stored block is the matching cost, once the target's corner row is the corners of its raw row
    and its indicator column is 1 at one class and 0 elsewhere. -/
def PayloadLaw : Prop :=
  ∀ (x0 : FVec Ideal S480x92 .f32) (x1 : FVec Ideal S480x4 .f32) (x2 x3 : FVec Ideal S1600x4 .f32)
    (x4 : FVec Ideal S92x1600 .f32) (p : Fin 480) (q : Fin 1600) (cls : Fin 92),
    x3 (ix2 q 0) = Cert.CostSpec.left (fun k => x2 (ix2 q k)) →
    x3 (ix2 q 1) = Cert.CostSpec.top (fun k => x2 (ix2 q k)) →
    x3 (ix2 q 2) = Cert.CostSpec.right (fun k => x2 (ix2 q k)) →
    x3 (ix2 q 3) = Cert.CostSpec.bottom (fun k => x2 (ix2 q k)) →
    (∀ c : Fin 92, x4 (ix2 c q) = if c = cls then (1 : EReal) else 0) →
    blockCost (F := Ideal) x0 x1 x2 x3 x4 (ix2 p q)
      = Cert.CostSpec.cost (fun c => x0 (ix2 p c)) (fun k => x1 (ix2 p k)) (fun k => x2 (ix2 q k)) cls

/-- What the host operations before the launch leave in the five windows' arrays. -/
structure HostFacts : Prop where
  logits : ∀ c : Dev nD, (V m c main_v0 : S9600x92.Idx → EReal)
      = shapeCast S9600x92 (m ((c : Thread nD τ).loc main_arg0)) shapeCasts_S32x300x92_S9600x92
  pbox : ∀ c : Dev nD, (V m c main_v1 : S9600x4.Idx → EReal)
      = shapeCast S9600x4 (m ((c : Thread nD τ).loc main_arg1)) shapeCasts_S32x300x4_S9600x4
  tbox : ∀ c : Dev nD, (V m c main_v2 : S1600x4.Idx → EReal)
      = shapeCast S1600x4 (m ((c : Thread nD τ).loc main_arg3)) shapeCasts_S32x50x4_S1600x4
  labels : ∀ c : Dev nD, (V m c main_v3 : S1600.Idx → BitVec 32)
      = shapeCast S1600 (m ((c : Thread nD τ).loc main_arg2)) shapeCasts_S32x50_S1600
  left : ∀ (c : Dev nD) (q : Fin 1600), (V m c main_v29 : S1600x4.Idx → EReal) (ix2 q 0)
      = Cert.CostSpec.left (fun k => (V m c main_v2 : S1600x4.Idx → EReal) (ix2 q k))
  top : ∀ (c : Dev nD) (q : Fin 1600), (V m c main_v29 : S1600x4.Idx → EReal) (ix2 q 1)
      = Cert.CostSpec.top (fun k => (V m c main_v2 : S1600x4.Idx → EReal) (ix2 q k))
  right : ∀ (c : Dev nD) (q : Fin 1600), (V m c main_v29 : S1600x4.Idx → EReal) (ix2 q 2)
      = Cert.CostSpec.right (fun k => (V m c main_v2 : S1600x4.Idx → EReal) (ix2 q k))
  bottom : ∀ (c : Dev nD) (q : Fin 1600), (V m c main_v29 : S1600x4.Idx → EReal) (ix2 q 3)
      = Cert.CostSpec.bottom (fun k => (V m c main_v2 : S1600x4.Idx → EReal) (ix2 q k))
  indicator : ∀ (c : Dev nD) (cl : Fin 92) (q : Fin 1600), (V m c main_v4 : S92x1600.Idx → EReal) (ix2 cl q)
      = if ((V m c main_v3 : S1600.Idx → BitVec 32) (ix1 q)).toNat = cl.val then (1 : EReal) else 0

/-! ## What point t writes back -/

/-- The cost matrix of the arrays the launch finds. -/
abbrev costArr (c : Dev nD) : S9600x1600.Idx → EReal :=
  Cert.CostSpec.cost2d (V m c main_v0) (V m c main_v1) (V m c main_v3) (V m c main_v2)

/-- Point t writes back block t of the cost matrix. -/
theorem flushed_eq (hP : PayloadLaw) (hH : HostFacts m)
    (hl : ∀ c : Dev nD, Cert.CostSpec.LabelsInRange (m ((c : Thread nD τ).loc main_arg2)))
    (c : Dev nD) (t : Fin cfg0.N) :
    (dats m 0 c).flushed 5 t = ((cfg0.win 5).blk t).view.read (Elt Ideal) (costArr m c) := by
  show (cfg0.win 5).cut (grid0.coords t) ((dats m 0 c).after 5 t) = _
  rw [after0_5]
  unfold outBlock
  rw [View.canon_unit_zero hz]
  simp only [View.ld_unit_zero (S := S480x92) hz, View.ld_unit_zero (S := S480x4) hz,
    View.ld_unit_zero (S := S1600x4) hz, View.ld_unit_zero (S := S92x1600) hz]
  funext j
  obtain ⟨p, q, rfl⟩ : ∃ (p : Fin 480) (q : Fin 1600), j = ix2 p q := ⟨j 0, j 1, eq_ix2 j⟩
  show blockCost (F := Ideal) (iblk m c 0 t) (iblk m c 1 t) (iblk m c 2 t) (iblk m c 3 t) (iblk m c 4 t) (ix2 p q) = _
  rw [View.read_apply]
  -- the column's label is a class index, so it names exactly one class
  have hq : ((V m c main_v3 : S1600.Idx → BitVec 32) (ix1 q)).toNat < 92 := by
    rw [hH.labels c]; exact hl c _
  refine (hP (iblk m c 0 t) (iblk m c 1 t) (iblk m c 2 t) (iblk m c 3 t) (iblk m c 4 t) p q
      (Cert.CostSpec.labelOf ((V m c main_v3 : S1600.Idx → BitVec 32) (ix1 q))) ?_ ?_ ?_ ?_ ?_).trans ?_
  · exact (corner_blk m c t q 0).trans ((hH.left c q).trans
      (congrArg Cert.CostSpec.left (funext fun k => (tbox_blk m c t q k).symm)))
  · exact (corner_blk m c t q 1).trans ((hH.top c q).trans
      (congrArg Cert.CostSpec.top (funext fun k => (tbox_blk m c t q k).symm)))
  · exact (corner_blk m c t q 2).trans ((hH.right c q).trans
      (congrArg Cert.CostSpec.right (funext fun k => (tbox_blk m c t q k).symm)))
  · exact (corner_blk m c t q 3).trans ((hH.bottom c q).trans
      (congrArg Cert.CostSpec.bottom (funext fun k => (tbox_blk m c t q k).symm)))
  · intro cl
    refine ((indicator_blk m c t cl q).trans (hH.indicator c cl q)).trans (if_congr ?_ rfl rfl)
    constructor
    · intro h
      apply Fin.ext
      show cl.val = ((V m c main_v3 : S1600.Idx → BitVec 32) (ix1 q)).toNat % 92
      rw [Nat.mod_eq_of_lt hq]; exact h.symm
    · intro h
      have h' : cl.val = ((V m c main_v3 : S1600.Idx → BitVec 32) (ix1 q)).toNat % 92 := congrArg Fin.val h
      rw [Nat.mod_eq_of_lt hq] at h'; exact h'.symm
  · -- the block's entry (p, q) sits at row 480·t + p, column q of the matrix
    have hemb : ((cfg0.win 5).blk t).view.emb (ix2 p q) = (ix2 (row t p) q : S9600x1600.Idx) := by
      obtain ⟨-, -, -, -, -, -, -, -, -, -, e0, e1⟩ := idx_facts t
      funext a
      apply Fin.ext
      match a with
      | ⟨0, _⟩ => show win0_5.index t (0 : Fin 2) * 480 + 1 * p.val = t.val * 480 + p.val; rw [e0]; omega
      | ⟨1, _⟩ => show win0_5.index t (1 : Fin 2) * 1600 + 1 * q.val = q.val; rw [e1]; omega
    show _ = costArr m c (((cfg0.win 5).blk t).view.emb (ix2 p q))
    rw [hemb]
    simp only [logits_blk, pbox_blk, tbox_blk]
    rfl

/-! ## The twenty blocks cover the matrix -/

/-- An index is in point t's block iff each coordinate is in the block's range on its axis. -/
theorem mem_blk (t : Fin cfg0.N) (i : S9600x1600.Idx) :
    i ∈ ((cfg0.win 5).blk t).view.set ↔ ∀ a : Fin 2, win0_5.index t a * S480x1600.size a ≤ (i a).val
      ∧ (i a).val < win0_5.index t a * S480x1600.size a + S480x1600.size a := by
  show i ∈ ((View.whole main_v30).slice (win0_5.rect t)).set ↔ _
  rw [View.set_slice_whole, Rect.mem_set_unit]
  exact Iff.rfl

/-- Row r of the matrix is written back by point r / 480. -/
theorem cover (i : S9600x1600.Idx) :
    ∃ t : Fin cfg0.N, (cfg0.win 5).flush t = true ∧ i ∈ ((cfg0.win 5).blk t).view.set := by
  have hN : cfg0.N = 20 := N_0
  have hi0 : (i 0).val < 9600 := (i 0).isLt
  have hi1 : (i 1).val < 1600 := (i 1).isLt
  have ht : (i 0).val / 480 < cfg0.N := by omega
  obtain ⟨-, -, -, -, -, -, -, -, -, -, e0, e1⟩ := idx_facts ⟨(i 0).val / 480, ht⟩
  have e0' : win0_5.index ⟨(i 0).val / 480, ht⟩ (0 : Fin 2) = (i 0).val / 480 := e0
  refine ⟨⟨(i 0).val / 480, ht⟩, flush0_5 _, ?_⟩
  rw [mem_blk]
  intro a
  match a with
  | ⟨0, _⟩ =>
    show win0_5.index ⟨(i 0).val / 480, ht⟩ (0 : Fin 2) * 480 ≤ (i 0).val
      ∧ (i 0).val < win0_5.index ⟨(i 0).val / 480, ht⟩ (0 : Fin 2) * 480 + 480
    rw [e0']; omega
  | ⟨1, _⟩ =>
    show win0_5.index ⟨(i 0).val / 480, ht⟩ (1 : Fin 2) * 1600 ≤ (i 1).val
      ∧ (i 1).val < win0_5.index ⟨(i 0).val / 480, ht⟩ (1 : Fin 2) * 1600 + 1600
    rw [e1]; omega

/-- So after the launch the output array is the cost matrix. -/
theorem final (hP : PayloadLaw) (hH : HostFacts m)
    (hl : ∀ c : Dev nD, Cert.CostSpec.LabelsInRange (m ((c : Thread nD τ).loc main_arg2))) (c : Dev nD) :
    (dats m 0 c).arrAt 5 cfg0.N = costArr m c :=
  (dats m 0 c).arrAt_eq_of_cover 5 (costArr m c) (fun t _ => flushed_eq m hP hH hl c t) cover

/-! ## The reshape after the launch, and the run -/

/-- The result buffer after the reshape that follows the launch: the output array with its rows' batch axis back. -/
theorem result_eq (c : Dev nD) :
    Pipeline.afterTail₀ cfgs (dats m) 0 (V0 m) [hostOps1] c main_v31
      = shapeCast S32x300x1600 ((dats m 0 c).arrAt 5 cfg0.N) shapeCasts_S9600x1600_S32x300x1600 := by
  unfold Pipeline.afterTail₀
  show StableHlo.after hostOps1 _ (Proc.devRef .tc main_v31) = _
  after_results
  funext i
  exact congrFun (congrArg (fun x => shapeCast S32x300x1600 x shapeCasts_S9600x1600_S32x300x1600)
    (Pipeline.withArrays_arr spec0 launch0.win.arr_inj c (V0 m c) (fun w => (dats m 0 c).arrAt w (cfgs 0).N) 5)) i

/-- The cost matrix of the arrays the launch finds is the cost matrix of the flattened arguments. -/
theorem costArr_eq (hH : HostFacts m) (c : Dev nD) :
    costArr m c = Cert.CostSpec.cost2d
      (shapeCast S9600x92 (m ((c : Thread nD τ).loc main_arg0)) shapeCasts_S32x300x92_S9600x92)
      (shapeCast S9600x4 (m ((c : Thread nD τ).loc main_arg1)) shapeCasts_S32x300x4_S9600x4)
      (shapeCast S1600 (m ((c : Thread nD τ).loc main_arg2)) shapeCasts_S32x50_S1600)
      (shapeCast S1600x4 (m ((c : Thread nD τ).loc main_arg3)) shapeCasts_S32x50x4_S1600x4) := by
  unfold costArr
  rw [hH.logits c, hH.pbox c, hH.labels c, hH.tbox c]

/-- The kernel's run, read: from any memory with zero counters whose labels are class indices, every weakly fair
    execution terminates with the result buffer at the specification of the four arguments, and the arguments as
    they were. -/
theorem kernel_run (hP : PayloadLaw) (hH : HostFacts m)
    (hl : ∀ c : Dev nD, Cert.CostSpec.LabelsInRange (m ((c : Thread nD τ).loc main_arg2))) :
    θ_run defs (onTc (τ := τ) (main (F := Ideal))) ⟨m, fun _ => 0, ρ⟩ (fun r => ∀ c : Dev nD,
      r.2.mem ((c.tc : Thread nD τ).loc main_v31)
          = Cert.CostSpec.G shapeCasts_S32x300x92_S9600x92 shapeCasts_S32x300x4_S9600x4 shapeCasts_S32x50_S1600
              shapeCasts_S32x50x4_S1600x4 shapeCasts_S9600x1600_S32x300x1600
              (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v31 (Pipeline.mem_restRefs_of main_v31 (by decide) (by decide))).trans
        ((result_eq m c).trans (by rw [final m hP hH hl c, costArr_eq m hH c]; rfl)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.HandValue

end
-- ==== Proof.KIPayload.lean ====
/-
  One entry of the block of costs the body stores.

  At row p of the 480 predictions and column q of the 1600 targets the stored value is the matching cost of
  prediction p with target q: the class term is 0 minus the product of the row of probabilities with column q of
  the class indicator, and a column that is 1 at one class and 0 elsewhere picks that class's probability; the L1
  term is the four absolute differences added one after the other from 0; the GIoU term is built from the
  prediction's corners, computed from its raw box, and the target's corners, which the body is handed ready-made.
-/
import proofs.«408791_j987842478748_1_alg».proof.Proof.KIBody
import proofs.«408791_j987842478748_1_alg».proof.Proof.CostSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Cert.KernelIdeal.Body
open Idealize.ShloMosaic Idealize.ShloMosaic.ValueIdx
open Cert.KernelIdeal.Facts₀ Cert.KernelIdeal.Facts

/-! ## Columns and rows with a unit axis, read at an index -/

section Layout
variable {α : Type}

/-- An `[a, 1]` column cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` array cast to an `[a, 1]` column reads, at `(i, u)`, the array at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- Column `k` of a 480 × 4 block, cut as a 480 × 1 column, read at row `p`. -/
theorem col480_apply (v : FVec Ideal S480x4 .f32) (o : Nat) (h : S480x4.Slices ![0, o] S480x1) (k : Fin 4) (hk : k.val = o)
    (p : Fin 480) (u : Fin 1) :
    extractStridedSlice S480x1 ![0, o] v h (ix2 p u) = v (ix2 p k) :=
  slice2_axis1_apply o v h p u k (by have := u.isLt; omega)

/-- Column `k` of a 1600 × 4 block, cut as a column and laid out as a 1 × 1600 row, read at `q`. -/
theorem row1600_apply (v : FVec Ideal S1600x4 .f32) (o : Nat) (h : S1600x4.Slices ![0, o] S1600x1)
    (h1 : S1600x1.ShapeCasts S1600) (h2 : S1600.ShapeCasts S1x1600) (k : Fin 4) (hk : k.val = o) (u : Fin 1) (q : Fin 1600) :
    shapeCast S1x1600 (shapeCast S1600 (extractStridedSlice S1600x1 ![0, o] v h) h1) h2 (ix2 u q) = v (ix2 q k) := by
  refine (shapeCast_a_1a_apply _ h2 u q).trans ?_
  refine (shapeCast_a1_a_apply _ h1 q).trans ?_
  exact slice2_axis1_apply o v h q 0 k (by rw [hk]; rfl)

/-! ## The prediction's box: the raw block, its corners, its area -/

theorem pay2_eq (v : FVec Ideal S480x4 .f32) : k0_pay2 (F := Ideal) v = v := by
  unfold k0_pay2
  exact shapeCast_self v _

theorem pay3_eq (v : FVec Ideal S1600x4 .f32) : k0_pay3 (F := Ideal) v = v := by
  unfold k0_pay3
  exact shapeCast_self v _

theorem pay15_eq (v : FVec Ideal S1600x4 .f32) : k0_pay15 (F := Ideal) v = v := by
  unfold k0_pay15
  exact shapeCast_self v _

/-- The left edge: centre x minus half the width. -/
theorem pay11_apply (v17 : FVec Ideal S480x4 .f32) (p : Fin 480) (u : Fin 1) :
    k0_pay11 (F := Ideal) v17 (ix2 p u) = v17 (ix2 p 0) - Cert.CostSpec.half * v17 (ix2 p 2) := by
  unfold k0_pay11 k0_pay7 k0_pay9
  show extractStridedSlice S480x1 ![0, 0] v17 _ (ix2 p u)
    - Ideal.ofBits .f32 0x3F000000#32 * extractStridedSlice S480x1 ![0, 2] v17 _ (ix2 p u) = _
  rw [col480_apply v17 0 _ 0 rfl, col480_apply v17 2 _ 2 rfl]

/-- The top edge: centre y minus half the height. -/
theorem pay12_apply (v17 : FVec Ideal S480x4 .f32) (p : Fin 480) (u : Fin 1) :
    k0_pay12 (F := Ideal) v17 (ix2 p u) = v17 (ix2 p 1) - Cert.CostSpec.half * v17 (ix2 p 3) := by
  unfold k0_pay12 k0_pay8 k0_pay10
  show extractStridedSlice S480x1 ![0, 1] v17 _ (ix2 p u)
    - Ideal.ofBits .f32 0x3F000000#32 * extractStridedSlice S480x1 ![0, 3] v17 _ (ix2 p u) = _
  rw [col480_apply v17 1 _ 1 rfl, col480_apply v17 3 _ 3 rfl]

/-- The right edge: centre x plus half the width. -/
theorem pay13_apply (v17 : FVec Ideal S480x4 .f32) (p : Fin 480) (u : Fin 1) :
    k0_pay13 (F := Ideal) v17 (ix2 p u) = v17 (ix2 p 0) + Cert.CostSpec.half * v17 (ix2 p 2) := by
  unfold k0_pay13 k0_pay7 k0_pay9
  show extractStridedSlice S480x1 ![0, 0] v17 _ (ix2 p u)
    + Ideal.ofBits .f32 0x3F000000#32 * extractStridedSlice S480x1 ![0, 2] v17 _ (ix2 p u) = _
  rw [col480_apply v17 0 _ 0 rfl, col480_apply v17 2 _ 2 rfl]

/-- The bottom edge: centre y plus half the height. -/
theorem pay14_apply (v17 : FVec Ideal S480x4 .f32) (p : Fin 480) (u : Fin 1) :
    k0_pay14 (F := Ideal) v17 (ix2 p u) = v17 (ix2 p 1) + Cert.CostSpec.half * v17 (ix2 p 3) := by
  unfold k0_pay14 k0_pay8 k0_pay10
  show extractStridedSlice S480x1 ![0, 1] v17 _ (ix2 p u)
    + Ideal.ofBits .f32 0x3F000000#32 * extractStridedSlice S480x1 ![0, 3] v17 _ (ix2 p u) = _
  rw [col480_apply v17 1 _ 1 rfl, col480_apply v17 3 _ 3 rfl]

/-- The prediction's area: width times height, from its corners. -/
theorem pay20_apply (v17 : FVec Ideal S480x4 .f32) (p : Fin 480) (u : Fin 1) :
    k0_pay20 (F := Ideal) v17 (ix2 p u) = Cert.CostSpec.area (fun k => v17 (ix2 p k)) := by
  unfold k0_pay20
  show (k0_pay13 (F := Ideal) v17 (ix2 p u) - k0_pay11 (F := Ideal) v17 (ix2 p u))
    * (k0_pay14 (F := Ideal) v17 (ix2 p u) - k0_pay12 (F := Ideal) v17 (ix2 p u)) = _
  rw [pay11_apply, pay12_apply, pay13_apply, pay14_apply]
  rfl

/-- The right edge along the 1600 columns. -/
theorem pay24_apply (v17 : FVec Ideal S480x4 .f32) (p : Fin 480) (q : Fin 1600) :
    k0_pay24 (F := Ideal) v17 (ix2 p q) = Cert.CostSpec.right (fun k => v17 (ix2 p k)) := by
  unfold k0_pay24
  refine (broadcastTo_a1_ab_apply _ _ p q).trans ?_
  exact pay13_apply v17 p 0

/-! ## The target's corners, handed ready-made: the four columns as rows, and the area -/

theorem pay16_apply (v73 : FVec Ideal S1600x4 .f32) (u : Fin 1) (q : Fin 1600) :
    k0_pay16 (F := Ideal) v73 (ix2 u q) = v73 (ix2 q 0) := by
  unfold k0_pay16
  rw [pay15_eq]
  exact row1600_apply v73 0 _ _ _ 0 rfl u q

theorem pay17_apply (v73 : FVec Ideal S1600x4 .f32) (u : Fin 1) (q : Fin 1600) :
    k0_pay17 (F := Ideal) v73 (ix2 u q) = v73 (ix2 q 1) := by
  unfold k0_pay17
  rw [pay15_eq]
  exact row1600_apply v73 1 _ _ _ 1 rfl u q

theorem pay18_apply (v73 : FVec Ideal S1600x4 .f32) (u : Fin 1) (q : Fin 1600) :
    k0_pay18 (F := Ideal) v73 (ix2 u q) = v73 (ix2 q 2) := by
  unfold k0_pay18
  rw [pay15_eq]
  exact row1600_apply v73 2 _ _ _ 2 rfl u q

theorem pay19_apply (v73 : FVec Ideal S1600x4 .f32) (u : Fin 1) (q : Fin 1600) :
    k0_pay19 (F := Ideal) v73 (ix2 u q) = v73 (ix2 q 3) := by
  unfold k0_pay19
  rw [pay15_eq]
  exact row1600_apply v73 3 _ _ _ 3 rfl u q

/-- The target's area from the corner columns. -/
theorem pay21_apply (v73 : FVec Ideal S1600x4 .f32) (u : Fin 1) (q : Fin 1600) :
    k0_pay21 (F := Ideal) v73 (ix2 u q)
      = (v73 (ix2 q 2) - v73 (ix2 q 0)) * (v73 (ix2 q 3) - v73 (ix2 q 1)) := by
  unfold k0_pay21
  show (k0_pay18 (F := Ideal) v73 (ix2 u q) - k0_pay16 (F := Ideal) v73 (ix2 u q))
    * (k0_pay19 (F := Ideal) v73 (ix2 u q) - k0_pay17 (F := Ideal) v73 (ix2 u q)) = _
  rw [pay16_apply, pay17_apply, pay18_apply, pay19_apply]

/-- The larger of the two left edges. -/
theorem pay22_apply (v17 : FVec Ideal S480x4 .f32) (v73 : FVec Ideal S1600x4 .f32) (p : Fin 480) (q : Fin 1600) :
    k0_pay22 (F := Ideal) v17 v73 (ix2 p q) = max (Cert.CostSpec.left (fun k => v17 (ix2 p k))) (v73 (ix2 q 0)) := by
  unfold k0_pay22
  show max (broadcastTo S480x1600 (k0_pay11 (F := Ideal) v17) _ (ix2 p q))
    (broadcastTo S480x1600 (k0_pay16 (F := Ideal) v73) _ (ix2 p q)) = _
  rw [broadcastTo_a1_ab_apply, broadcastTo_1b_ab_apply, pay11_apply, pay16_apply]
  rfl

/-- The larger of the two top edges. -/
theorem pay23_apply (v17 : FVec Ideal S480x4 .f32) (v73 : FVec Ideal S1600x4 .f32) (p : Fin 480) (q : Fin 1600) :
    k0_pay23 (F := Ideal) v17 v73 (ix2 p q) = max (Cert.CostSpec.top (fun k => v17 (ix2 p k))) (v73 (ix2 q 1)) := by
  unfold k0_pay23
  show max (broadcastTo S480x1600 (k0_pay12 (F := Ideal) v17) _ (ix2 p q))
    (broadcastTo S480x1600 (k0_pay17 (F := Ideal) v73) _ (ix2 p q)) = _
  rw [broadcastTo_a1_ab_apply, broadcastTo_1b_ab_apply, pay12_apply, pay17_apply]
  rfl

/-! ## The L1 term -/

/-- One coordinate's absolute difference: column `k` of the predictions along the 1600 columns, minus column `k` of the
    targets along the 480 rows, in absolute value. -/
theorem absdiff_apply (v17 : FVec Ideal S480x4 .f32) (v19 : FVec Ideal S1600x4 .f32) (o : Nat)
    (hs1 : S480x4.Slices ![0, o] S480x1) (hs2 : S1600x4.Slices ![0, o] S1600x1)
    (h1 : S1600x1.ShapeCasts S1600) (h2 : S1600.ShapeCasts S1x1600)
    (hb1 : S480x1.Broadcasts S480x1600) (hb2 : S1x1600.Broadcasts S480x1600)
    (k : Fin 4) (hk : k.val = o) (p : Fin 480) (q : Fin 1600) :
    absf (subf (broadcastTo S480x1600 (extractStridedSlice S480x1 ![0, o] v17 hs1) hb1)
        (broadcastTo S480x1600 (shapeCast S1x1600 (shapeCast S1600 (extractStridedSlice S1600x1 ![0, o] v19 hs2) h1) h2) hb2))
      (ix2 p q)
      = max (v17 (ix2 p k) - v19 (ix2 q k)) (-(v17 (ix2 p k) - v19 (ix2 q k))) := by
  have e1 : broadcastTo S480x1600 (extractStridedSlice S480x1 ![0, o] v17 hs1) hb1 (ix2 p q) = v17 (ix2 p k) :=
    (broadcastTo_a1_ab_apply _ hb1 p q).trans (col480_apply v17 o hs1 k hk p 0)
  have e2 : broadcastTo S480x1600 (shapeCast S1x1600 (shapeCast S1600 (extractStridedSlice S1600x1 ![0, o] v19 hs2) h1) h2) hb2 (ix2 p q)
      = v19 (ix2 q k) :=
    (broadcastTo_1b_ab_apply _ hb2 p q).trans (row1600_apply v19 o hs2 h1 h2 k hk 0 q)
  show max (_ - _) (-(_ - _)) = _
  rw [e1, e2]

/-- The first two coordinates' absolute differences, added to 0 one after the other. -/
theorem pay4_apply (v16 : FVec Ideal S480x4 .f32) (v18 : FVec Ideal S1600x4 .f32) (p : Fin 480) (q : Fin 1600) :
    k0_pay4 (F := Ideal) v16 v18 (ix2 p q)
      = (Cert.CostSpec.zero + max (v16 (ix2 p 0) - v18 (ix2 q 0)) (-(v16 (ix2 p 0) - v18 (ix2 q 0))))
        + max (v16 (ix2 p 1) - v18 (ix2 q 1)) (-(v16 (ix2 p 1) - v18 (ix2 q 1))) := by
  unfold k0_pay4
  rw [pay2_eq, pay3_eq]
  simp only [addf_apply, broadcast_apply]
  rw [absdiff_apply v16 v18 0 _ _ _ _ _ _ 0 rfl p q, absdiff_apply v16 v18 1 _ _ _ _ _ _ 1 rfl p q]
  rfl

/-- The third coordinate's difference, before its absolute value. -/
theorem pay5_apply (v16 : FVec Ideal S480x4 .f32) (v18 : FVec Ideal S1600x4 .f32) (p : Fin 480) (q : Fin 1600) :
    k0_pay5 (F := Ideal) v16 v18 (ix2 p q) = v16 (ix2 p 2) - v18 (ix2 q 2) := by
  unfold k0_pay5
  rw [pay2_eq, pay3_eq]
  simp only [subf_apply]
  rw [broadcastTo_a1_ab_apply, broadcastTo_1b_ab_apply, col480_apply v16 2 _ 2 rfl p 0,
    row1600_apply v18 2 _ _ _ 2 rfl 0 q]

/-- The last two absolute differences added on. -/
theorem pay6_apply (v17 : FVec Ideal S480x4 .f32) (v19 : FVec Ideal S1600x4 .f32) (v38 v45 : FVec Ideal S480x1600 .f32)
    (p : Fin 480) (q : Fin 1600) :
    k0_pay6 (F := Ideal) v17 v19 v38 v45 (ix2 p q)
      = (v38 (ix2 p q) + max (v45 (ix2 p q)) (-(v45 (ix2 p q))))
        + max (v17 (ix2 p 3) - v19 (ix2 q 3)) (-(v17 (ix2 p 3) - v19 (ix2 q 3))) := by
  unfold k0_pay6
  simp only [addf_apply]
  rw [absdiff_apply v17 v19 3 _ _ _ _ _ _ 3 rfl p q]
  rfl

/-- The four absolute differences added to 0 one after the other are the L1 distance. -/
theorem l1_apply (x1 : FVec Ideal S480x4 .f32) (x2 : FVec Ideal S1600x4 .f32) (p : Fin 480) (q : Fin 1600) :
    k0_pay6 (F := Ideal) (k0_pay2 x1) (k0_pay3 x2) (k0_pay4 x1 x2) (k0_pay5 x1 x2) (ix2 p q)
      = Cert.CostSpec.l1 (fun k => x1 (ix2 p k)) (fun k => x2 (ix2 q k)) := by
  rw [pay6_apply, pay4_apply, pay5_apply, pay2_eq, pay3_eq]
  unfold Cert.CostSpec.l1
  rw [Fin.sum_univ_four]
  simp only [add_assoc]

/-! ## The class term -/

/-- Over row `p`, the reduction along the classes inserts class `c` at `(p, c)`. -/
theorem lift_row (h : S480x92.Reduces [1] S480) (p : Fin 480) (c : Fin 92) : h.lift (ix1 p) c = ix2 p c := by
  funext a
  match a with
  | ⟨0, _⟩ => rfl
  | ⟨1, _⟩ => rfl

/-- A row's maximum from −∞. -/
theorem rowMax_apply (v : FVec Ideal S480x92 .f32) (h : S480x92.Reduces [1] S480) (hφ : FKind.Formats .f32)
    (hacc : (0xFF800000#32 : BitVec 32) = FKind.maximumf.neutral .f32 hφ) (p : Fin 480) :
    multiReduction (F := Ideal) .maximumf [1] S480 v 0xFF800000#32 h hφ hacc (ix1 p)
      = Cert.CostSpec.rowMax (fun c => v (ix2 p c)) := by
  refine (Ideal.multiReduction_maximumf_single v _ h hφ hacc (ix1 p)).trans ?_
  have e : (v ∘ h.lift (ix1 p)) = fun c : Fin 92 => v (ix2 p c) := funext fun c => congrArg v (lift_row h p c)
  rw [e]
  rfl

/-- A row's sum. -/
theorem rowSum_apply (v : FVec Ideal S480x92 .f32) (h : S480x92.Reduces [1] S480) (hφ : FKind.Formats .f32)
    (hacc : (0x00000000#32 : BitVec 32) = FKind.add.neutral .f32 hφ) (p : Fin 480) :
    multiReduction (F := Ideal) .add [1] S480 v 0x00000000#32 h hφ hacc (ix1 p) = ∑ c : Fin 92, v (ix2 p c) := by
  refine (Ideal.multiReduction_add_single v _ h hφ hacc (ix1 p)).trans ?_
  exact Finset.sum_congr rfl fun c _ => congrArg v (lift_row h p c)

/-- A per-row value laid out as a column and spread along the 92 classes reads, at `(p, c)`, the row's value. -/
theorem rowSpread_apply (r : FVec Ideal S480 .f32) (hc : S480.ShapeCasts S480x1) (hb : S480x1.Broadcasts S480x92)
    (p : Fin 480) (c : Fin 92) : broadcastTo S480x92 (shapeCast S480x1 r hc) hb (ix2 p c) = r (ix1 p) :=
  (broadcastTo_a1_ab_apply _ hb p c).trans (shapeCast_a_a1_apply r hc p 0)

/-- exp (logit − the row's maximum) at `(p, c)`. -/
theorem expShift_apply (v : FVec Ideal S480x92 .f32) (h : S480x92.Reduces [1] S480) (hφ : FKind.Formats .f32)
    (hacc : (0xFF800000#32 : BitVec 32) = FKind.maximumf.neutral .f32 hφ) (hc : S480.ShapeCasts S480x1)
    (hb : S480x1.Broadcasts S480x92) (p : Fin 480) (c : Fin 92) :
    exp (subf v (broadcastTo S480x92 (shapeCast S480x1 (multiReduction (F := Ideal) .maximumf [1] S480 v 0xFF800000#32 h hφ hacc) hc) hb))
        (ix2 p c)
      = Cert.CostSpec.shifted (fun c => v (ix2 p c)) c := by
  show Ideal.exp (v (ix2 p c) - _) = _
  rw [rowSpread_apply, rowMax_apply]
  rfl

/-- A block divided by its rows' sums at `(p, c)`, the block's row `p` being `S`. -/
theorem rowNormalize_apply (E : FVec Ideal S480x92 .f32) (h : S480x92.Reduces [1] S480) (hφ : FKind.Formats .f32)
    (hacc : (0x00000000#32 : BitVec 32) = FKind.add.neutral .f32 hφ) (hc : S480.ShapeCasts S480x1)
    (hb : S480x1.Broadcasts S480x92) (p : Fin 480) (c : Fin 92) (S : Fin 92 → EReal) (hS : ∀ k, E (ix2 p k) = S k) :
    divf E (broadcastTo S480x92 (shapeCast S480x1 (multiReduction (F := Ideal) .add [1] S480 E 0x00000000#32 h hφ hacc) hc) hb) (ix2 p c)
      = Ideal.div (S c) (∑ k : Fin 92, S k) := by
  show Ideal.div (E (ix2 p c)) _ = _
  rw [rowSpread_apply, rowSum_apply, hS c]
  exact congrArg (Ideal.div (S c)) (Finset.sum_congr rfl fun k _ => hS k)

/-- The product's left operand index at result `(p, q)` and class `c` is `(p, c)`. -/
theorem dot_lhsIdx (p : Fin 480) (q : Fin 1600) (c : Fin 92) :
    dot_S480x92_S92x1600_S480x1600_1_0_0_1_n_n.lhsIdx (ix2 p q)
        ((contrEquiv1 dot_S480x92_S92x1600_S480x1600_1_0_0_1_n_n 92 rfl rfl).symm c) = ix2 p c := by
  funext a
  match a with
  | ⟨0, _⟩ => rfl
  | ⟨1, _⟩ =>
    exact Fin.ext ((DotDims.lhsIdx_val_of_single _ rfl _ _).trans (contrEquiv1_symm_val _ 92 rfl rfl c))

/-- The product's right operand index at result `(p, q)` and class `c` is `(c, q)`. -/
theorem dot_rhsIdx (p : Fin 480) (q : Fin 1600) (c : Fin 92) :
    dot_S480x92_S92x1600_S480x1600_1_0_0_1_n_n.rhsIdx (ix2 p q)
        ((contrEquiv1 dot_S480x92_S92x1600_S480x1600_1_0_0_1_n_n 92 rfl rfl).symm c) = ix2 c q := by
  funext a
  match a with
  | ⟨0, _⟩ =>
    exact Fin.ext ((DotDims.rhsIdx_val_of_single _ rfl _ _).trans (contrEquiv1_symm_val _ 92 rfl rfl c))
  | ⟨1, _⟩ => rfl

/-- The class term at `(p, q)`: 0 minus the row of probabilities times column `q` of the class indicator. -/
theorem pay1_apply (v0 : FVec Ideal S480x92 .f32) (v11 : FVec Ideal S92x1600 .f32) (p : Fin 480) (q : Fin 1600) :
    k0_pay1 (F := Ideal) v0 v11 (ix2 p q)
      = Cert.CostSpec.zero - ∑ c : Fin 92, Cert.CostSpec.prob (fun c => v0 (ix2 p c)) c * v11 (ix2 c q) := by
  unfold k0_pay1
  simp only [shapeCast_self, subf_apply, broadcast_apply]
  refine congrArg (Cert.CostSpec.zero - ·) ?_
  refine (Ideal.matmul_constant_zero_apply _ _ _ _ _).trans ?_
  refine (Equiv.sum_comp (contrEquiv1 dot_S480x92_S92x1600_S480x1600_1_0_0_1_n_n 92 rfl rfl).symm _).symm.trans ?_
  refine Finset.sum_congr rfl fun c _ => ?_
  rw [dot_lhsIdx, dot_rhsIdx]
  refine congrArg (· * v11 (ix2 c q)) ?_
  exact rowNormalize_apply _ _ _ _ _ _ p c (Cert.CostSpec.shifted fun c => v0 (ix2 p c))
    (fun k => expShift_apply v0 _ _ _ _ _ p k)

/-- A sum against a column that is 1 at one class and 0 elsewhere picks that class's term. -/
theorem sum_indicator (f g : Fin 92 → EReal) (cls : Fin 92) (hind : ∀ c, g c = if c = cls then (1 : EReal) else 0) :
    ∑ c : Fin 92, f c * g c = f cls := by
  rw [Finset.sum_eq_single cls]
  · rw [hind cls, if_pos rfl, mul_one]
  · intro b _ hb
    rw [hind b, if_neg hb, mul_zero]
  · intro h
    exact absurd (Finset.mem_univ cls) h

/-- 0, as its word, minus x is −x. -/
theorem zeroWord_sub (x : EReal) : Cert.CostSpec.zero - x = -x := by
  rw [show Cert.CostSpec.zero = 0 from Ideal.ofBits_zero_f32, zero_sub]

/-! ## The GIoU term and the weighted sum -/

/-- The last stretch at `(p, q)`, over whatever the fifteen values it is handed are: intersection `I`, union `U`, hull
    `H`, the generalised IoU, and the weighted sum of the three terms. -/
theorem pay25_apply (v15 v56 : FVec Ideal S480x1600 .f32) (v63 v66 v69 v72 : FVec Ideal S480x1 .f32)
    (v77 v80 v83 v86 : FVec Ideal S1x1600 .f32) (v89 : FVec Ideal S480x1 .f32) (v92 : FVec Ideal S1x1600 .f32)
    (v95 v98 v99 : FVec Ideal S480x1600 .f32) (p : Fin 480) (q : Fin 1600)
    (I U H : EReal)
    (hI : I = max Cert.CostSpec.zero (min (v99 (ix2 p q)) (v83 (ix2 0 q)) - v95 (ix2 p q))
        * max Cert.CostSpec.zero (min (v72 (ix2 p 0)) (v86 (ix2 0 q)) - v98 (ix2 p q)))
    (hU : U = v89 (ix2 p 0) + v92 (ix2 0 q) - I)
    (hH : H = max Cert.CostSpec.zero (max (v69 (ix2 p 0)) (v83 (ix2 0 q)) - min (v63 (ix2 p 0)) (v77 (ix2 0 q)))
        * max Cert.CostSpec.zero (max (v72 (ix2 p 0)) (v86 (ix2 0 q)) - min (v66 (ix2 p 0)) (v80 (ix2 0 q)))) :
    k0_pay25 (F := Ideal) v15 v56 v63 v66 v69 v72 v77 v80 v83 v86 v89 v92 v95 v98 v99 (ix2 p q)
      = Cert.CostSpec.five * v56 (ix2 p q) + Cert.CostSpec.one * v15 (ix2 p q)
        + Cert.CostSpec.two * (Cert.CostSpec.zero - (Ideal.div I U - Ideal.div (H - U) H)) := by
  subst hU hI hH
  unfold k0_pay25
  simp only [addf_apply, mulf_apply, subf_apply, divf_apply, maximumf_apply, minimumf_apply, broadcast_apply,
    broadcastTo_a1_ab_apply, broadcastTo_1b_ab_apply]
  rfl

/-! ## The stored entry -/

/-- The stored block at (p, q), given that row q of the corner array holds the corners of row q of the raw target
    boxes and that column q of the class indicator is 1 at class `cls` and 0 elsewhere. -/
theorem blockCost_apply (x0 : FVec Ideal S480x92 .f32) (x1 : FVec Ideal S480x4 .f32) (x2 x3 : FVec Ideal S1600x4 .f32)
    (x4 : FVec Ideal S92x1600 .f32) (p : Fin 480) (q : Fin 1600) (cls : Fin 92)
    (hleft : x3 (ix2 q 0) = Cert.CostSpec.left (fun k => x2 (ix2 q k)))
    (htop : x3 (ix2 q 1) = Cert.CostSpec.top (fun k => x2 (ix2 q k)))
    (hright : x3 (ix2 q 2) = Cert.CostSpec.right (fun k => x2 (ix2 q k)))
    (hbottom : x3 (ix2 q 3) = Cert.CostSpec.bottom (fun k => x2 (ix2 q k)))
    (hind : ∀ c : Fin 92, x4 (ix2 c q) = if c = cls then (1 : EReal) else 0) :
    blockCost (F := Ideal) x0 x1 x2 x3 x4 (ix2 p q)
      = Cert.CostSpec.cost (fun c => x0 (ix2 p c)) (fun k => x1 (ix2 p k)) (fun k => x2 (ix2 q k)) cls := by
  unfold blockCost
  refine (pay25_apply _ _ _ _ _ _ _ _ _ _ _ _ _ _ _ p q _ _ _ rfl rfl rfl).trans ?_
  rw [l1_apply, pay1_apply, sum_indicator _ (fun c => x4 (ix2 c q)) cls hind, zeroWord_sub, zeroWord_sub]
  rw [pay2_eq, pay24_apply, pay22_apply, pay23_apply, pay20_apply, pay21_apply,
    pay11_apply, pay12_apply, pay13_apply, pay14_apply, pay16_apply, pay17_apply, pay18_apply, pay19_apply]
  rw [hleft, htop, hright, hbottom]
  rfl

end Cert.KernelIdeal.Payload

end
-- ==== Proof.KIHost.lean ====
/-
  What the five input windows' arrays hold when the launch is reached.

  Three are reshapes of arguments (the logits, the predicted boxes, the target boxes, their batch axes flattened). The
  fourth joins four columns side by side: the left, top, right and bottom corners of each target box, computed from
  its centre and extents. The fifth is the class indicator: row c, column q is 1 when target q's label is c and 0
  otherwise (the comparison of the label with the row number, converted to a number).
-/
import proofs.«408791_j987842478748_1_alg».proof.Proof.KIFrame
import proofs.«408791_j987842478748_1_alg».proof.Proof.CostSpec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Host

open Cert.KernelIdeal Cert.KernelIdeal.Gen Cert.KernelIdeal.Frame
open Idealize.ShloMosaic Idealize.ShloMosaic.TcCoe Idealize.ShloMosaic.ValueIdx Idealize.SL.Sem

variable (m : (ℓ : Loc nD τ sig) → Buf (Elt Ideal) ℓ)

/-! ## The four reshapes

Each is written once, by the first stretch of operations, and by nothing after it. -/

/-- The flattened logits. -/
theorem V_logits (c : Dev nD) :
    (V m c main_v0 : S9600x92.Idx → EReal) = shapeCast S9600x92 (m ((c : Thread nD τ).loc main_arg0)) shapeCasts_S32x300x92_S9600x92 := by
  dsimp only [V, V0]
  simp only [hostOps0, hostOps0_1, hostOps0_2, List.flatten_cons, List.flatten_nil, List.append_nil, List.cons_append, List.nil_append]
  after_results
  rfl

/-- The flattened predicted boxes. -/
theorem V_pbox (c : Dev nD) :
    (V m c main_v1 : S9600x4.Idx → EReal) = shapeCast S9600x4 (m ((c : Thread nD τ).loc main_arg1)) shapeCasts_S32x300x4_S9600x4 := by
  dsimp only [V, V0]
  simp only [hostOps0, hostOps0_1, hostOps0_2, List.flatten_cons, List.flatten_nil, List.append_nil, List.cons_append, List.nil_append]
  after_results
  rfl

/-- The flattened target boxes. -/
theorem V_tbox (c : Dev nD) :
    (V m c main_v2 : S1600x4.Idx → EReal) = shapeCast S1600x4 (m ((c : Thread nD τ).loc main_arg3)) shapeCasts_S32x50x4_S1600x4 := by
  dsimp only [V, V0]
  simp only [hostOps0, hostOps0_1, hostOps0_2, List.flatten_cons, List.flatten_nil, List.append_nil, List.cons_append, List.nil_append]
  after_results
  rfl

/-- The flattened labels. -/
theorem V_labels (c : Dev nD) :
    (V m c main_v3 : S1600.Idx → BitVec 32) = shapeCast S1600 (m ((c : Thread nD τ).loc main_arg2)) shapeCasts_S32x50_S1600 := by
  dsimp only [V, V0]
  simp only [hostOps0, hostOps0_1, hostOps0_2, List.flatten_cons, List.flatten_nil, List.append_nil, List.cons_append, List.nil_append]
  after_results
  rfl

/-! ## The three stretches, one after the other -/

/-- The contents when the launch is reached: the third stretch run from what the second leaves, the second from what
    the first leaves. -/
theorem V0_split (c : Dev nD) :
    V0 m c = StableHlo.after hostOps0_2 (StableHlo.after hostOps0_1 (StableHlo.after hostOps0 (fun b => m (c, b)))) := by
  dsimp only [V0]
  rw [List.flatten_cons, List.flatten_cons, List.flatten_cons, List.flatten_nil, List.append_nil,
    StableHlo.after_append, StableHlo.after_append]

/-- The second stretch does not write the flattened labels. -/
theorem after1_v3 (Y : Valuation τ sig (Elt Ideal)) :
    StableHlo.after hostOps0_1 Y (Proc.devRef .tc main_v3) = Y (Proc.devRef .tc main_v3) := by
  simp only [hostOps0_1]
  after_results

/-- The third stretch writes none of the flattened target boxes, the flattened labels and the class indicator. -/
theorem after2_v2 (Y : Valuation τ sig (Elt Ideal)) :
    StableHlo.after hostOps0_2 Y (Proc.devRef .tc main_v2) = Y (Proc.devRef .tc main_v2) := by
  simp only [hostOps0_2]
  after_results
theorem after2_v3 (Y : Valuation τ sig (Elt Ideal)) :
    StableHlo.after hostOps0_2 Y (Proc.devRef .tc main_v3) = Y (Proc.devRef .tc main_v3) := by
  simp only [hostOps0_2]
  after_results
theorem after2_v4 (Y : Valuation τ sig (Elt Ideal)) :
    StableHlo.after hostOps0_2 Y (Proc.devRef .tc main_v4) = Y (Proc.devRef .tc main_v4) := by
  simp only [hostOps0_2]
  after_results

/-! ## The corners -/

/-- Column k of the target boxes as a vector of 1600: the slice [0:1600, k:k+1] with its unit axis dropped. -/
def boxCol (T : S1600x4.Idx → EReal) (k : ℕ) (hs : S1600x4.Slices ![0, k] S1600x1) : S1600.Idx → EReal :=
  shapeCast S1600 (extractStridedSlice S1600x1 ![0, k] T hs) shapeCasts_S1600x1_S1600

/-- ½ at every target. -/
def halfVec : S1600.Idx → EReal :=
  broadcastInDim S1600 ![] bcast_S_S1600 (constant (F := Ideal) S_ .f32 0x3F000000#32)

/-- A vector of 1600 as one column. -/
def asCol (v : S1600.Idx → EReal) : S1600x1.Idx → EReal := broadcastInDim S1600x1 ![0] bcast_S1600_S1600x1_0 v

/-- Column k of the boxes at target q is entry (q, k). -/
theorem boxCol_apply (T : S1600x4.Idx → EReal) (k : ℕ) (hk : k < 4) (hs : S1600x4.Slices ![0, k] S1600x1) (q : Fin 1600) :
    boxCol T k hs (ix1 q) = T (ix2 q ⟨k, hk⟩) := by
  unfold boxCol
  refine (shapeCast_apply _ _ (ix1 q) (ix2 q (0 : Fin 1)) ?_).trans ?_
  · rw [Shape.rowMajor_val_two, Shape.rowMajor_val_one]
    show q.val * 1 + 0 = q.val
    omega
  · exact extractStridedSlice_apply _ _ _ (ix2 q (0 : Fin 1)) (ix2 q ⟨k, hk⟩) (fun a => match a with
      | ⟨0, _⟩ => by show q.val = 0 + q.val; omega
      | ⟨1, _⟩ => by show k = k + 0; omega)

/-- ½ everywhere is ½. -/
theorem halfVec_apply (i : S1600.Idx) : halfVec i = Cert.CostSpec.half := rfl

/-- A vector as one column, at (q, 0), is the vector at q. -/
theorem asCol_apply (v : S1600.Idx → EReal) (q : Fin 1600) : asCol v (ix2 q (0 : Fin 1)) = v (ix1 q) :=
  broadcastInDim_apply _ _ _ (ix2 q (0 : Fin 1)) (ix1 q) (fun a => match a with | ⟨0, _⟩ => rfl)

/-- The third stretch's four columns, from the flattened target boxes it finds: centre ∓ ½ · extent. -/
theorem after2_v25 (Y : Valuation τ sig (Elt Ideal)) :
    (StableHlo.after hostOps0_2 Y (Proc.devRef .tc main_v25) : S1600x1.Idx → EReal)
      = asCol (fun i => boxCol (Y (Proc.devRef .tc main_v2)) 0 slices_S1600x4_S1600x1_0_0 i
                - halfVec i * boxCol (Y (Proc.devRef .tc main_v2)) 2 slices_S1600x4_S1600x1_0_2 i) := by
  simp only [hostOps0_2]
  after_results
  rfl
theorem after2_v26 (Y : Valuation τ sig (Elt Ideal)) :
    (StableHlo.after hostOps0_2 Y (Proc.devRef .tc main_v26) : S1600x1.Idx → EReal)
      = asCol (fun i => boxCol (Y (Proc.devRef .tc main_v2)) 1 slices_S1600x4_S1600x1_0_1 i
                - halfVec i * boxCol (Y (Proc.devRef .tc main_v2)) 3 slices_S1600x4_S1600x1_0_3 i) := by
  simp only [hostOps0_2]
  after_results
  rfl
theorem after2_v27 (Y : Valuation τ sig (Elt Ideal)) :
    (StableHlo.after hostOps0_2 Y (Proc.devRef .tc main_v27) : S1600x1.Idx → EReal)
      = asCol (fun i => boxCol (Y (Proc.devRef .tc main_v2)) 0 slices_S1600x4_S1600x1_0_0 i
                + halfVec i * boxCol (Y (Proc.devRef .tc main_v2)) 2 slices_S1600x4_S1600x1_0_2 i) := by
  simp only [hostOps0_2]
  after_results
  rfl
theorem after2_v28 (Y : Valuation τ sig (Elt Ideal)) :
    (StableHlo.after hostOps0_2 Y (Proc.devRef .tc main_v28) : S1600x1.Idx → EReal)
      = asCol (fun i => boxCol (Y (Proc.devRef .tc main_v2)) 1 slices_S1600x4_S1600x1_0_1 i
                + halfVec i * boxCol (Y (Proc.devRef .tc main_v2)) 3 slices_S1600x4_S1600x1_0_3 i) := by
  simp only [hostOps0_2]
  after_results
  rfl

/-- The corner array is the four columns joined side by side. -/
theorem after2_v29 (Y : Valuation τ sig (Elt Ideal)) :
    (StableHlo.after hostOps0_2 Y (Proc.devRef .tc main_v29) : S1600x4.Idx → EReal)
      = concatenate S1600x4 1
          [⟨S1600x1, (StableHlo.after hostOps0_2 Y (Proc.devRef .tc main_v25) : S1600x1.Idx → EReal)⟩,
           ⟨S1600x1, (StableHlo.after hostOps0_2 Y (Proc.devRef .tc main_v26) : S1600x1.Idx → EReal)⟩,
           ⟨S1600x1, (StableHlo.after hostOps0_2 Y (Proc.devRef .tc main_v27) : S1600x1.Idx → EReal)⟩,
           ⟨S1600x1, (StableHlo.after hostOps0_2 Y (Proc.devRef .tc main_v28) : S1600x1.Idx → EReal)⟩]
          concatenates_S1600x1_S1600x1_S1600x1_S1600x1_S1600x4_d1 := by
  simp only [hostOps0_2, StableHlo.after_cons, StableHlo.after_nil]
  rw [StableHlo.nary_result]
  rw [StableHlo.nary_result_ne _ _ _ _ _ _ (show main_v25 ≠ main_v29 by decide)]
  rw [StableHlo.nary_result_ne _ _ _ _ _ _ (show main_v26 ≠ main_v29 by decide)]
  rw [StableHlo.nary_result_ne _ _ _ _ _ _ (show main_v27 ≠ main_v29 by decide)]
  rw [StableHlo.nary_result_ne _ _ _ _ _ _ (show main_v28 ≠ main_v29 by decide)]
  rfl

/-- Four columns joined side by side, read at (q, k): column k at (q, 0). -/
theorem join4_apply_0 (x0 x1 x2 x3 : S1600x1.Idx → EReal) (q : Fin 1600) :
    concatenate S1600x4 1 [⟨S1600x1, x0⟩, ⟨S1600x1, x1⟩, ⟨S1600x1, x2⟩, ⟨S1600x1, x3⟩]
      concatenates_S1600x1_S1600x1_S1600x1_S1600x1_S1600x4_d1 (ix2 q 0) = x0 (ix2 q (0 : Fin 1)) :=
  concatenate_apply_piece (t := S1600x4) (1 : Fin 2) [⟨S1600x1, x0⟩, ⟨S1600x1, x1⟩, ⟨S1600x1, x2⟩, ⟨S1600x1, x3⟩]
    concatenates_S1600x1_S1600x1_S1600x1_S1600x1_S1600x4_d1 (ix2 q 0) 0 (show 0 < 4 by decide) S1600x1 x0 rfl rfl 0 rfl (ix2 q (0 : Fin 1))
    (fun b hb => match b, hb with | ⟨0, _⟩, _ => rfl | ⟨1, _⟩, hb => absurd rfl hb) rfl
theorem join4_apply_1 (x0 x1 x2 x3 : S1600x1.Idx → EReal) (q : Fin 1600) :
    concatenate S1600x4 1 [⟨S1600x1, x0⟩, ⟨S1600x1, x1⟩, ⟨S1600x1, x2⟩, ⟨S1600x1, x3⟩]
      concatenates_S1600x1_S1600x1_S1600x1_S1600x1_S1600x4_d1 (ix2 q 1) = x1 (ix2 q (0 : Fin 1)) :=
  concatenate_apply_piece (t := S1600x4) (1 : Fin 2) [⟨S1600x1, x0⟩, ⟨S1600x1, x1⟩, ⟨S1600x1, x2⟩, ⟨S1600x1, x3⟩]
    concatenates_S1600x1_S1600x1_S1600x1_S1600x1_S1600x4_d1 (ix2 q 1) 1 (show 1 < 4 by decide) S1600x1 x1 rfl rfl 1 rfl (ix2 q (0 : Fin 1))
    (fun b hb => match b, hb with | ⟨0, _⟩, _ => rfl | ⟨1, _⟩, hb => absurd rfl hb) rfl
theorem join4_apply_2 (x0 x1 x2 x3 : S1600x1.Idx → EReal) (q : Fin 1600) :
    concatenate S1600x4 1 [⟨S1600x1, x0⟩, ⟨S1600x1, x1⟩, ⟨S1600x1, x2⟩, ⟨S1600x1, x3⟩]
      concatenates_S1600x1_S1600x1_S1600x1_S1600x1_S1600x4_d1 (ix2 q 2) = x2 (ix2 q (0 : Fin 1)) :=
  concatenate_apply_piece (t := S1600x4) (1 : Fin 2) [⟨S1600x1, x0⟩, ⟨S1600x1, x1⟩, ⟨S1600x1, x2⟩, ⟨S1600x1, x3⟩]
    concatenates_S1600x1_S1600x1_S1600x1_S1600x1_S1600x4_d1 (ix2 q 2) 2 (show 2 < 4 by decide) S1600x1 x2 rfl rfl 2 rfl (ix2 q (0 : Fin 1))
    (fun b hb => match b, hb with | ⟨0, _⟩, _ => rfl | ⟨1, _⟩, hb => absurd rfl hb) rfl
theorem join4_apply_3 (x0 x1 x2 x3 : S1600x1.Idx → EReal) (q : Fin 1600) :
    concatenate S1600x4 1 [⟨S1600x1, x0⟩, ⟨S1600x1, x1⟩, ⟨S1600x1, x2⟩, ⟨S1600x1, x3⟩]
      concatenates_S1600x1_S1600x1_S1600x1_S1600x1_S1600x4_d1 (ix2 q 3) = x3 (ix2 q (0 : Fin 1)) :=
  concatenate_apply_piece (t := S1600x4) (1 : Fin 2) [⟨S1600x1, x0⟩, ⟨S1600x1, x1⟩, ⟨S1600x1, x2⟩, ⟨S1600x1, x3⟩]
    concatenates_S1600x1_S1600x1_S1600x1_S1600x1_S1600x4_d1 (ix2 q 3) 3 (show 3 < 4 by decide) S1600x1 x3 rfl rfl 3 rfl (ix2 q (0 : Fin 1))
    (fun b hb => match b, hb with | ⟨0, _⟩, _ => rfl | ⟨1, _⟩, hb => absurd rfl hb) rfl

/-- What the launch finds in the flattened target boxes and in the corner array, from what the second stretch leaves:
    the boxes as they were, the corners as the third stretch's join of its four columns. -/
theorem V_v2_eq (c : Dev nD) :
    V m c main_v2 = StableHlo.after hostOps0_1 (StableHlo.after hostOps0 (fun b => m (c, b))) (Proc.devRef .tc main_v2) := by
  show V0 m c (Proc.devRef .tc main_v2) = _
  rw [V0_split, after2_v2]
theorem V_v29_eq (c : Dev nD) :
    V m c main_v29 = StableHlo.after hostOps0_2 (StableHlo.after hostOps0_1 (StableHlo.after hostOps0 (fun b => m (c, b)))) (Proc.devRef .tc main_v29) := by
  show V0 m c (Proc.devRef .tc main_v29) = _
  rw [V0_split]

/-- Row q of the corner array: the four corners of row q of the flattened target boxes. -/
theorem V_corner_left (c : Dev nD) (q : Fin 1600) :
    (V m c main_v29 : S1600x4.Idx → EReal) (ix2 q 0) = Cert.CostSpec.left (fun k => (V m c main_v2 : S1600x4.Idx → EReal) (ix2 q k)) := by
  rw [V_v29_eq, V_v2_eq, after2_v29]
  refine (join4_apply_0 _ _ _ _ q).trans ?_
  rw [after2_v25, asCol_apply, boxCol_apply _ 0 (by decide), boxCol_apply _ 2 (by decide), halfVec_apply]
  rfl
theorem V_corner_top (c : Dev nD) (q : Fin 1600) :
    (V m c main_v29 : S1600x4.Idx → EReal) (ix2 q 1) = Cert.CostSpec.top (fun k => (V m c main_v2 : S1600x4.Idx → EReal) (ix2 q k)) := by
  rw [V_v29_eq, V_v2_eq, after2_v29]
  refine (join4_apply_1 _ _ _ _ q).trans ?_
  rw [after2_v26, asCol_apply, boxCol_apply _ 1 (by decide), boxCol_apply _ 3 (by decide), halfVec_apply]
  rfl
theorem V_corner_right (c : Dev nD) (q : Fin 1600) :
    (V m c main_v29 : S1600x4.Idx → EReal) (ix2 q 2) = Cert.CostSpec.right (fun k => (V m c main_v2 : S1600x4.Idx → EReal) (ix2 q k)) := by
  rw [V_v29_eq, V_v2_eq, after2_v29]
  refine (join4_apply_2 _ _ _ _ q).trans ?_
  rw [after2_v27, asCol_apply, boxCol_apply _ 0 (by decide), boxCol_apply _ 2 (by decide), halfVec_apply]
  rfl
theorem V_corner_bottom (c : Dev nD) (q : Fin 1600) :
    (V m c main_v29 : S1600x4.Idx → EReal) (ix2 q 3) = Cert.CostSpec.bottom (fun k => (V m c main_v2 : S1600x4.Idx → EReal) (ix2 q k)) := by
  rw [V_v29_eq, V_v2_eq, after2_v29]
  refine (join4_apply_3 _ _ _ _ q).trans ?_
  rw [after2_v28, asCol_apply, boxCol_apply _ 1 (by decide), boxCol_apply _ 3 (by decide), halfVec_apply]
  rfl

/-! ## The class indicator -/

/-- The indicator as a function of the flattened labels: the labels laid along the columns, the row numbers along the
    rows, their comparison for equality, and the bit as a number. -/
def indicatorOf (L : S1600.Idx → BitVec 32) : S92x1600.Idx → EReal :=
  uitofp (F := Ideal) .f32 (cmpi .eq
    (broadcastInDim S92x1600 ![0, 1] bcast_S1x1600_S92x1600_0_1 (broadcastInDim S1x1600 ![1] bcast_S1600_S1x1600_1 L))
    (broadcastInDim S92x1600 ![0, 1] bcast_S92x1_S92x1600_0_1 (iotaInDim S92x1 32 0)))

/-- The second stretch leaves the indicator of the labels it finds. -/
theorem after1_v4 (Y : Valuation τ sig (Elt Ideal)) :
    (StableHlo.after hostOps0_1 Y (Proc.devRef .tc main_v4) : S92x1600.Idx → EReal)
      = indicatorOf (Y (Proc.devRef .tc main_v3) : S1600.Idx → BitVec 32) := by
  simp only [hostOps0_1]
  after_results
  rfl

/-- The labels laid along the columns of the 92 × 1600 rectangle: at (cl, q), label q. -/
theorem labels_bcast_apply (L : S1600.Idx → BitVec 32) (cl : Fin 92) (q : Fin 1600) :
    broadcastInDim S92x1600 ![0, 1] bcast_S1x1600_S92x1600_0_1 (broadcastInDim S1x1600 ![1] bcast_S1600_S1x1600_1 L) (ix2 cl q)
      = L (ix1 q) := by
  refine (broadcastInDim_apply _ _ _ (ix2 cl q) (ix2 (0 : Fin 1) q) (fun a => ?_)).trans ?_
  · match a with
    | ⟨0, _⟩ => rfl
    | ⟨1, _⟩ => rfl
  · exact broadcastInDim_apply _ _ _ (ix2 (0 : Fin 1) q) (ix1 q) (fun a => match a with | ⟨0, _⟩ => rfl)

/-- The row numbers laid along the rows: at (cl, q), the word of cl. -/
theorem rows_bcast_apply (cl : Fin 92) (q : Fin 1600) :
    broadcastInDim S92x1600 ![0, 1] bcast_S92x1_S92x1600_0_1 (iotaInDim S92x1 32 0) (ix2 cl q) = BitVec.ofNat 32 cl.val := by
  refine (broadcastInDim_apply _ _ _ (ix2 cl q) (ix2 cl (0 : Fin 1)) (fun a => ?_)).trans rfl
  match a with
  | ⟨0, _⟩ => rfl
  | ⟨1, _⟩ => rfl

/-- The bit of "the word w is the word of n", as a number: 1 when w's unsigned value is n, 0 otherwise (n below 2³²). -/
theorem eqBit_toReal (w : BitVec 32) (n : ℕ) (hn : n < 2 ^ 32) :
    (((IntOp.cmpi .eq w (BitVec.ofNat 32 n)).toNat : ℝ) : EReal) = if w.toNat = n then (1 : EReal) else 0 := by
  have hw : w = BitVec.ofNat 32 n ↔ w.toNat = n := by
    constructor
    · intro e
      rw [e, BitVec.toNat_ofNat]
      exact Nat.mod_eq_of_lt hn
    · intro e
      apply BitVec.eq_of_toNat_eq
      rw [BitVec.toNat_ofNat, e]
      exact (Nat.mod_eq_of_lt hn).symm
  show (((BitVec.ofBool (w == BitVec.ofNat 32 n)).toNat : ℝ) : EReal) = _
  by_cases h : w.toNat = n
  · have e : (w == BitVec.ofNat 32 n) = true := beq_iff_eq.mpr (hw.mpr h)
    rw [e, if_pos h]
    show (((1 : ℕ) : ℝ) : EReal) = 1
    rw [Nat.cast_one, EReal.coe_one]
  · have e : (w == BitVec.ofNat 32 n) = false := beq_eq_false_iff_ne.mpr (fun e => h (hw.mp e))
    rw [e, if_neg h]
    show (((0 : ℕ) : ℝ) : EReal) = 0
    rw [Nat.cast_zero, EReal.coe_zero]

/-- The indicator at (cl, q): 1 when label q, as an unsigned word, is cl, 0 otherwise. -/
theorem indicatorOf_apply (L : S1600.Idx → BitVec 32) (cl : Fin 92) (q : Fin 1600) :
    indicatorOf L (ix2 cl q) = if (L (ix1 q)).toNat = cl.val then (1 : EReal) else 0 := by
  show (((IntOp.cmpi .eq
      (broadcastInDim S92x1600 ![0, 1] bcast_S1x1600_S92x1600_0_1 (broadcastInDim S1x1600 ![1] bcast_S1600_S1x1600_1 L) (ix2 cl q))
      (broadcastInDim S92x1600 ![0, 1] bcast_S92x1_S92x1600_0_1 (iotaInDim S92x1 32 0) (ix2 cl q))).toNat : ℝ) : EReal) = _
  rw [labels_bcast_apply, rows_bcast_apply]
  exact eqBit_toReal _ _ (by have := cl.isLt; omega)

/-- What the launch finds in the flattened labels and in the class indicator, from what the first stretch leaves: the
    labels as they were, the indicator as the second stretch's function of them. -/
theorem V_v3_eq (c : Dev nD) :
    V m c main_v3 = StableHlo.after hostOps0 (fun b => m (c, b)) (Proc.devRef .tc main_v3) := by
  show V0 m c (Proc.devRef .tc main_v3) = _
  rw [V0_split, after2_v3, after1_v3]
theorem V_v4_eq (c : Dev nD) :
    (V m c main_v4 : S92x1600.Idx → EReal)
      = indicatorOf (StableHlo.after hostOps0 (fun b => m (c, b)) (Proc.devRef .tc main_v3) : S1600.Idx → BitVec 32) := by
  show V0 m c (Proc.devRef .tc main_v4) = _
  rw [V0_split, after2_v4]
  exact after1_v4 _

/-- The class indicator: 1 where target q's label, as an unsigned word, is the row number, 0 elsewhere. -/
theorem V_indicator (c : Dev nD) (cl : Fin 92) (q : Fin 1600) :
    (V m c main_v4 : S92x1600.Idx → EReal) (ix2 cl q)
      = if ((V m c main_v3 : S1600.Idx → BitVec 32) (ix1 q)).toNat = cl.val then (1 : EReal) else 0 := by
  rw [V_v4_eq, V_v3_eq]
  exact indicatorOf_apply _ cl q

end Cert.KernelIdeal.Host

end
-- ==== Proof.PreLabels.lean ====
/-
  What the precondition says of the labels: every label, read as an unsigned word, is below 92 — it is at least 0
  and below 92 as a signed word, and a signed word that is at least 0 is its unsigned value.
-/
import proofs.«408791_j987842478748_1_alg».proof.Defs
import proofs.«408791_j987842478748_1_alg».proof.Proof.Gen.Pre_finite_inputs
import proofs.«408791_j987842478748_1_alg».proof.Proof.CostSpec
import Idealize.ShloMosaic.Lib.ReduceAll
import Idealize.ShloMosaic.Lib.StableHlo.Predicate

noncomputable section

namespace Cert.PreLabels

open Idealize.ShloMosaic Idealize.SL.Sem

variable {F : FTy → Type} [FloatOps F]

/-- If the printed precondition is all ones, every label is a class index. -/
theorem labels_of_fn (a0 : FVec F Cert.Pre_finite_inputs.S32x300x92 .f32) (a1 : FVec F Cert.Pre_finite_inputs.S32x300x4 .f32)
    (a2 : IVec Cert.Pre_finite_inputs.S32x50 32) (a3 : FVec F Cert.Pre_finite_inputs.S32x50x4 .f32)
    (h : Cert.Pre_finite_inputs.fn (F := F) a0 a1 a2 a3 = fun _ => 1#1) : Cert.CostSpec.LabelsInRange a2 := by
  intro i
  -- the printed function at its one index is the conjunction of the finiteness tests with the labels' test
  have e := congrFun h ValueIdx.ix0
  dsimp only [Cert.Pre_finite_inputs.fn, Cert.Pre_finite_inputs.fn_part1] at e
  -- the labels' test: the and over both axes of (0 ≤ label) ∧ (label < 92) is 1
  have eall := (IntOp.andi_eq_one.1 e).2
  haveI : Subsingleton Cert.Pre_finite_inputs.S_.Idx := ⟨fun a b => funext fun d => d.elim0⟩
  -- so the conjunction is 1 at every index
  have ei := Host.reduce_andi_all _ _ _ _ _ eall i
  obtain ⟨hge, hlt⟩ := IntOp.andi_eq_one.1 ei
  -- the two compares, read signed
  have h0 := IntOp.cmpi_sge.1 hge
  have h92 := IntOp.cmpi_slt.1 hlt
  -- the broadcast constants read at i are the words 0 and 92
  have h0' : (0#32 : BitVec 32).toInt ≤ (a2 i).toInt := h0
  have h92' : (a2 i).toInt < (92#32 : BitVec 32).toInt := h92
  rw [show (0#32 : BitVec 32).toInt = 0 from by decide] at h0'
  rw [show (92#32 : BitVec 32).toInt = 92 from by decide] at h92'
  -- a word whose signed value is non-negative has that value as its unsigned one
  have hc := BitVec.toInt_eq_toNat_cond (a2 i)
  have hb := (a2 i).isLt
  split at hc <;> omega

/-- So under the idealized kernel's precondition every core's labels are class indices. -/
theorem labels_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.CostSpec.LabelsInRange (m ((c.tc : Thread Cert.KernelIdeal.nD Cert.KernelIdeal.τ).loc Cert.KernelIdeal.main_arg2)) :=
  labels_of_fn _ _ _ _ (h c)

end Cert.PreLabels

end
-- ==== Proof.RefRows.lean ====
/-
  The reference's flattened inputs, row by row: the names the two halves of the reference side share.
-/
import proofs.«408791_j987842478748_1_alg».proof.Proof.Gen.ReferenceIdeal.Run
import proofs.«408791_j987842478748_1_alg».proof.Proof.Gen.ReferenceIdeal.Read
import proofs.«408791_j987842478748_1_alg».proof.Proof.CostSpec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo
open Cert.ReferenceIdeal.Facts₀ Cert.ReferenceIdeal.Facts

/-- Row `r` of the flattened logits. -/
abbrev logitsRow (x0 : FVec Ideal S32x300x92 .f32) (r : Fin 9600) : Fin 92 → EReal := fun c => val_main_v0 (F := Ideal) x0 (ix2 r c)
/-- Row `r` of the flattened predicted boxes. -/
abbrev pboxRow (x1 : FVec Ideal S32x300x4 .f32) (r : Fin 9600) : Fin 4 → EReal := fun k => val_main_v12 (F := Ideal) x1 (ix2 r k)
/-- Row `q` of the flattened target boxes. -/
abbrev tboxRow (x3 : FVec Ideal S32x50x4 .f32) (q : Fin 1600) : Fin 4 → EReal := fun k => val_main_v14 (F := Ideal) x3 (ix2 q k)

end Cert.ReferenceIdeal.RefValue

end
-- ==== Proof.RefGlue.lean ====
/-
  The reference's result from its three terms.

  The reference multiplies the L1 term by 5, the class term by 1 and the GIoU term by 2, adds them in that order, and
  gives the 9600 rows their batch axis back. So once each term is known at every (row, column), the result is the
  specification of the four arguments.
-/
import proofs.«408791_j987842478748_1_alg».proof.Proof.RefRows

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

/-- The class term at every (row, column): minus the softmax probability of the column's class. -/
def ClassTerm : Prop :=
  ∀ (x0 : FVec Ideal S32x300x92 .f32) (x2 : IVec S32x50 32), Cert.CostSpec.LabelsInRange x2 → ∀ (r : Fin 9600) (q : Fin 1600),
    val_main_v22 (F := Ideal) x0 x2 (ix2 r q)
      = -Cert.CostSpec.prob (logitsRow x0 r) (Cert.CostSpec.labelOf (val_main_v13 (F := Ideal) x2 (ix1 q)))

/-- The L1 term at every (row, column). -/
def L1Term : Prop :=
  ∀ (x1 : FVec Ideal S32x300x4 .f32) (x3 : FVec Ideal S32x50x4 .f32) (r : Fin 9600) (q : Fin 1600),
    val_main_v29 (F := Ideal) x1 x3 (ix2 r q) = Cert.CostSpec.l1 (pboxRow x1 r) (tboxRow x3 q)

/-- The GIoU term at every (row, column). -/
def GiouTerm : Prop :=
  ∀ (x1 : FVec Ideal S32x300x4 .f32) (x3 : FVec Ideal S32x50x4 .f32) (r : Fin 9600) (q : Fin 1600),
    val_main_v154 (F := Ideal) x1 x3 (ix2 r q) = -Cert.CostSpec.giou (pboxRow x1 r) (tboxRow x3 q)

/-- The reference's cost matrix before the last reshape is the specification's. -/
theorem ref_cost2d_of (hc : ClassTerm) (h1 : L1Term) (hg : GiouTerm)
    (x0 : FVec Ideal S32x300x92 .f32) (x1 : FVec Ideal S32x300x4 .f32) (x2 : IVec S32x50 32)
    (x3 : FVec Ideal S32x50x4 .f32) (hl : Cert.CostSpec.LabelsInRange x2) :
    val_main_v162 (F := Ideal) x0 x1 x2 x3
      = Cert.CostSpec.cost2d (val_main_v0 (F := Ideal) x0) (val_main_v12 (F := Ideal) x1) (val_main_v13 (F := Ideal) x2) (val_main_v14 (F := Ideal) x3) := by
  funext i
  obtain ⟨r, q, rfl⟩ : ∃ (r : Fin 9600) (q : Fin 1600), i = ix2 r q := ⟨i 0, i 1, eq_ix2 i⟩
  rw [val_main_v162_apply, val_main_v159_apply, val_main_v156_apply, val_main_v158_apply, val_main_v161_apply,
    val_main_v155_apply, val_main_v157_apply, val_main_v160_apply,
    val_main_cst_14_apply, val_main_cst_15_apply, val_main_cst_16_apply,
    h1 x1 x3 r q, hc x0 x2 hl r q, hg x1 x3 r q]
  rfl

/-- The reference's result is the specification of its four arguments. -/
theorem ref_value_of (hc : ClassTerm) (h1 : L1Term) (hg : GiouTerm)
    (x0 : FVec Ideal S32x300x92 .f32) (x1 : FVec Ideal S32x300x4 .f32) (x2 : IVec S32x50 32)
    (x3 : FVec Ideal S32x50x4 .f32) (hl : Cert.CostSpec.LabelsInRange x2) :
    val_main_v163 (F := Ideal) x0 x1 x2 x3
      = Cert.CostSpec.G Gen.shapeCasts_S32x300x92_S9600x92 Gen.shapeCasts_S32x300x4_S9600x4 Gen.shapeCasts_S32x50_S1600
          Gen.shapeCasts_S32x50x4_S1600x4 Gen.shapeCasts_S9600x1600_S32x300x1600 x0 x1 x2 x3 := by
  unfold val_main_v163
  rw [ref_cost2d_of hc h1 hg x0 x1 x2 x3 hl]
  rfl

end Cert.ReferenceIdeal.RefValue

end
-- ==== Proof.RefClass.lean ====
/-
  The reference's class term: minus the softmax probability of the target's class.

  The row maximum is the fold of max from −∞ (taking the maximum with −∞ once more changes nothing), the row sum of
  the shifted exponentials starts from 0, and the gather reads, in each row, the column the label names: a label
  in range is non-negative, so it is not wrapped, and it is within the 92 columns, so it is not clamped.
-/
import proofs.«408791_j987842478748_1_alg».proof.Proof.RefRows
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo
open Cert.ReferenceIdeal.Facts₀ Cert.ReferenceIdeal.Facts

/-! ## The softmax of a row -/

/-- Reducing the 9600 × 92 logits over their second axis leaves the 9600 rows. -/
theorem refClass_reduces : S9600x92.Reduces [1] S9600 := by decide

/-- Row `r` with the class `k` put back on the reduced axis is the entry `(r, k)`. -/
theorem refClass_lift (r : Fin 9600) (k : Fin 92) : refClass_reduces.lift (ix1 r) k = ix2 r k :=
  funext fun a => Fin.ext (by match a with | ⟨0, _⟩ => rfl | ⟨1, _⟩ => rfl)

/-- The max-reduction of the logits over the classes, at row `r`: the fold of max from −∞ over the row's 92 logits. -/
theorem refClass_rowMax_reduce (x0 : FVec Ideal S32x300x92 .f32) (r : Fin 9600) :
    val_main_v1 (F := Ideal) x0 (ix1 r) = Cert.CostSpec.rowMax (logitsRow x0 r) := by
  unfold val_main_v1
  have e := Host.reduce_eq_fold_single (FloatOps.maximumf (F := Ideal) (φ := .f32)) (val_main_v0 (F := Ideal) x0)
    (val_main_cst (F := Ideal)) Gen.reducesTo_S9600x92_S9600_d1 refClass_reduces Gen.h_S_ (ix1 r)
  refine e.trans ?_
  have hf : (val_main_v0 (F := Ideal) x0 ∘ refClass_reduces.lift (ix1 r)) = logitsRow x0 r := by
    funext k
    exact congrArg (val_main_v0 (F := Ideal) x0) (refClass_lift r k)
  rw [hf]
  rfl

/-- −∞, the value the fold starts from, is below the fold. -/
theorem refClass_negInf_le (l : Fin 92 → EReal) : Cert.CostSpec.negInf ≤ Cert.CostSpec.rowMax l :=
  (Finset.le_fold_max _).mpr (Or.inl le_rfl)

/-- The maximum of −∞ with the row maximum is the row maximum. -/
theorem refClass_rowMax (x0 : FVec Ideal S32x300x92 .f32) (r : Fin 9600) :
    val_main_v3 (F := Ideal) x0 (ix1 r) = Cert.CostSpec.rowMax (logitsRow x0 r) := by
  rw [val_main_v3_apply, refClass_rowMax_reduce, val_main_v2_apply, val_main_cst_0_apply]
  exact max_eq_right (refClass_negInf_le _)

/-- The exponential of a logit minus its row's maximum, at `(r, c)`. -/
theorem refClass_shifted (x0 : FVec Ideal S32x300x92 .f32) (r : Fin 9600) (c : Fin 92) :
    val_main_v7 (F := Ideal) x0 (ix2 r c) = Cert.CostSpec.shifted (logitsRow x0 r) c := by
  rw [val_main_v7_apply, val_main_v6_apply, val_main_v5_apply, val_main_v4_apply]
  have hi : idx_main_v4 (idx_main_v5 (ix2 r c)) = ix1 r := funext fun a => Fin.ext (by match a with | ⟨0, _⟩ => rfl)
  rw [hi, refClass_rowMax]
  rfl

/-- The sum of the row's shifted exponentials: it starts from the zero word, which is 0. -/
theorem refClass_rowSum (x0 : FVec Ideal S32x300x92 .f32) (r : Fin 9600) :
    val_main_v8 (F := Ideal) x0 (ix1 r) = ∑ k : Fin 92, Cert.CostSpec.shifted (logitsRow x0 r) k := by
  rw [val_main_v8_apply, val_main_cst_1_apply, Ideal.ofBits_def, Ideal.ofBits_zero_f32, zero_add]
  refine Finset.sum_congr rfl fun k _ => ?_
  have hi : idx_main_v8 (ix1 r) k = ix2 r k :=
    funext fun a => Fin.ext (by match a with | ⟨0, _⟩ => rfl | ⟨1, _⟩ => rfl)
  rw [hi, refClass_shifted]

/-- The softmax probability at `(r, c)`. -/
theorem refClass_prob (x0 : FVec Ideal S32x300x92 .f32) (r : Fin 9600) (c : Fin 92) :
    val_main_v11 (F := Ideal) x0 (ix2 r c) = Cert.CostSpec.prob (logitsRow x0 r) c := by
  rw [val_main_v11_apply, val_main_v10_apply, val_main_v9_apply]
  have hi : idx_main_v9 (idx_main_v10 (ix2 r c)) = ix1 r := funext fun a => Fin.ext (by match a with | ⟨0, _⟩ => rfl)
  rw [hi, refClass_rowSum, refClass_shifted]
  rfl

/-! ## A label in range, as a column -/

/-- A word whose unsigned value is below 92 has that value as a signed integer. -/
theorem refClass_toInt (b : BitVec 32) (h : b.toNat < 92) : b.toInt = (b.toNat : Int) :=
  BitVec.toInt_eq_toNat_of_lt (by omega)

/-- Such a word is not negative, so the wrap of negative labels (add 92 when below 0) leaves it as it is. -/
theorem refClass_wrap (b : BitVec 32) (h : b.toNat < 92) :
    Scalar.select (IntOp.cmpi .slt b 0#32) (IntOp.addi b 92#32) b = b := by
  have hs : b.slt 0#32 = false := by
    rw [BitVec.slt_eq_decide, refClass_toInt b h, BitVec.toInt_zero]
    exact decide_eq_false (by omega)
  have hc : IntOp.cmpi .slt b 0#32 = 0#1 := by
    show BitVec.ofBool (b.slt 0#32) = 0#1
    rw [hs]; rfl
  rw [hc]; exact select_zero _ _

/-- Read signed and clamped into [0, 91], such a word is its unsigned value, which is also its residue mod 92. -/
theorem refClass_clamp (b : BitVec 32) (h : b.toNat < 92) : min b.toInt.toNat 91 = b.toNat % 92 := by
  rw [refClass_toInt b h, Int.toNat_natCast, Nat.mod_eq_of_lt h]
  omega

/-- The start index of column `q`: the label itself, when it is in range. -/
theorem refClass_start (x2 : IVec S32x50 32) (q : Fin 1600) (h : (val_main_v13 (F := Ideal) x2 (ix1 q)).toNat < 92) :
    val_main_v20 (F := Ideal) x2 (ix2 q 0) = val_main_v13 (F := Ideal) x2 (ix1 q) := by
  rw [val_main_v20_apply]
  have hi : idx_main_v20 (ix2 q (0 : Fin 1)) = ix1 q := funext fun a => Fin.ext (by match a with | ⟨0, _⟩ => rfl)
  rw [hi, val_main_v19_apply, val_main_v16_apply, val_main_v18_apply, val_main_v15_apply, val_main_c_apply,
    val_main_v17_apply, val_main_c_2_apply]
  exact refClass_wrap _ h

/-! ## The gather -/

/-- The entry of the operand the gather reads for the result's `(r, q)`: row `r` (the offset axis, whose slice is
    the whole axis, so its start is 0), and on the collapsed class axis the start index of `q`, read signed and
    clamped into [0, 92 − 1]. -/
theorem refClass_operandIdx {w : Nat} (idx : IVec S1600x1 w) (r : Fin 9600) (q : Fin 1600) :
    gather_S9600x92_S1600x1_S9600x1600_0_1_n_n_1_1_96001.operandIdx (ix2 r q) idx
      = ix2 r ⟨min (idx (ix2 q 0)).toInt.toNat 91, by omega⟩ := by
  funext a
  refine Fin.ext ?_
  match a with
  | ⟨0, _⟩ =>
    show gather_S9600x92_S1600x1_S9600x1600_0_1_n_n_1_1_96001.start (ix2 r q) idx 0
      + gather_S9600x92_S1600x1_S9600x1600_0_1_n_n_1_1_96001.batchCoord (ix2 r q) 0
      + gather_S9600x92_S1600x1_S9600x1600_0_1_n_n_1_1_96001.offCoord (ix2 r q) 0 = r.val
    rw [GatherDims.batchCoord_eq_zero _ _ _ List.not_mem_nil]
    have hs : gather_S9600x92_S1600x1_S9600x1600_0_1_n_n_1_1_96001.start (ix2 r q) idx 0 = 0 := by
      unfold GatherDims.start
      exact dif_neg (by decide)
    have ho : gather_S9600x92_S1600x1_S9600x1600_0_1_n_n_1_1_96001.offCoord (ix2 r q) 0 = r.val := by
      unfold GatherDims.offCoord
      rw [dif_pos (by decide)]
      rfl
    rw [hs, ho]; omega
  | ⟨1, _⟩ =>
    show gather_S9600x92_S1600x1_S9600x1600_0_1_n_n_1_1_96001.start (ix2 r q) idx 1
      + gather_S9600x92_S1600x1_S9600x1600_0_1_n_n_1_1_96001.batchCoord (ix2 r q) 1
      + gather_S9600x92_S1600x1_S9600x1600_0_1_n_n_1_1_96001.offCoord (ix2 r q) 1
        = min (idx (ix2 q 0)).toInt.toNat 91
    rw [GatherDims.batchCoord_eq_zero _ _ _ List.not_mem_nil,
      GatherDims.offCoord_eq_zero _ _ _ (by decide)]
    unfold GatherDims.start
    rw [dif_pos (by decide)]
    have hsi : gather_S9600x92_S1600x1_S9600x1600_0_1_n_n_1_1_96001.siIdx (ix2 r q)
        ⟨List.idxOf (1 : Fin 2) gather_S9600x92_S1600x1_S9600x1600_0_1_n_n_1_1_96001.startIndexMap,
          List.idxOf_lt_length_iff.2 (by decide)⟩ = ix2 q 0 := by
      funext b; refine Fin.ext ?_
      match b with
      | ⟨0, _⟩ => rfl
      | ⟨1, _⟩ => rfl
    rw [hsi]
    rfl

/-- The gather at `(r, q)`: the probability of row `r` at the class the label of `q` names. -/
theorem refClass_gather (x0 : FVec Ideal S32x300x92 .f32) (x2 : IVec S32x50 32) (hl : Cert.CostSpec.LabelsInRange x2)
    (r : Fin 9600) (q : Fin 1600) :
    val_main_v21 (F := Ideal) x0 x2 (ix2 r q)
      = val_main_v11 (F := Ideal) x0 (ix2 r (Cert.CostSpec.labelOf (val_main_v13 (F := Ideal) x2 (ix1 q)))) := by
  have hlt : (val_main_v13 (F := Ideal) x2 (ix1 q)).toNat < 92 := by
    rw [val_main_v13_apply]; exact hl _
  unfold val_main_v21 Host.gather
  rw [refClass_operandIdx]
  refine congrArg (fun c => val_main_v11 (F := Ideal) x0 (ix2 r c)) (Fin.ext ?_)
  show min (val_main_v20 (F := Ideal) x2 (ix2 q 0)).toInt.toNat 91 = (val_main_v13 (F := Ideal) x2 (ix1 q)).toNat % 92
  rw [refClass_start x2 q hlt]
  exact refClass_clamp _ hlt

/-- The class term at row `r`, column `q`. -/
theorem ref_class (x0 : FVec Ideal S32x300x92 .f32) (x2 : IVec S32x50 32) (hl : Cert.CostSpec.LabelsInRange x2)
    (r : Fin 9600) (q : Fin 1600) :
    val_main_v22 (F := Ideal) x0 x2 (ix2 r q)
      = -Cert.CostSpec.prob (logitsRow x0 r) (Cert.CostSpec.labelOf (val_main_v13 (F := Ideal) x2 (ix1 q))) := by
  rw [val_main_v22_apply, refClass_gather x0 x2 hl, refClass_prob]
  rfl

end Cert.ReferenceIdeal.RefValue

end
-- ==== Proof.RefBoxes.lean ====
/-
  The reference's two box terms: the L1 distance of the raw parameters, and minus the generalised IoU of the
  corner forms. Each corner array is four columns joined side by side, so its entry in column k is the k-th corner
  formula of the row; the pairwise minima, maxima and clipped differences are taken on two-column slices of those.
-/
import proofs.«408791_j987842478748_1_alg».proof.Proof.RefRows
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo
open Cert.ReferenceIdeal.Facts₀ Cert.ReferenceIdeal.Facts

/-! ## The L1 term

Entry (r, q, k) of the two broadcast arrays is parameter k of prediction r and of target q; the sum over k of the
absolute differences, from the zero word, is the specification's L1 distance. -/

/-- The predicted boxes broadcast to (r, q, k) read row r, column k. -/
theorem l1_pidx (r : Fin 9600) (q : Fin 1600) (k : Fin 4) :
    idx_main_v23 (idx_main_v25 (idx_main_v29 (ix2 r q) k)) = ix2 r k := by
  funext a; match a with | ⟨0, _⟩ => rfl | ⟨1, _⟩ => rfl

/-- The target boxes broadcast to (r, q, k) read row q, column k. -/
theorem l1_tidx (r : Fin 9600) (q : Fin 1600) (k : Fin 4) :
    idx_main_v24 (idx_main_v26 (idx_main_v29 (ix2 r q) k)) = ix2 q k := by
  funext a; match a with | ⟨0, _⟩ => rfl | ⟨1, _⟩ => rfl

/-! ## The predicted boxes: the four columns, the four corners, the joined corner array -/

/-- Column 0 of the predicted boxes, as a vector over the rows: the centre's x. -/
theorem p_c0 (x1 : FVec Ideal S32x300x4 .f32) (r : Fin 9600) :
    val_main_v31 (F := Ideal) x1 (ix1 r) = pboxRow x1 r 0 := by
  rw [val_main_v31_apply, val_main_v30_apply]
  exact congrArg (val_main_v12 (F := Ideal) x1)
    (funext fun a => match a with | ⟨0, _⟩ => Fin.ext (Nat.div_one _) | ⟨1, _⟩ => rfl)

/-- Column 1: the centre's y. -/
theorem p_c1 (x1 : FVec Ideal S32x300x4 .f32) (r : Fin 9600) :
    val_main_v33 (F := Ideal) x1 (ix1 r) = pboxRow x1 r 1 := by
  rw [val_main_v33_apply, val_main_v32_apply]
  exact congrArg (val_main_v12 (F := Ideal) x1)
    (funext fun a => match a with | ⟨0, _⟩ => Fin.ext (Nat.div_one _) | ⟨1, _⟩ => rfl)

/-- Column 2: the width. -/
theorem p_c2 (x1 : FVec Ideal S32x300x4 .f32) (r : Fin 9600) :
    val_main_v35 (F := Ideal) x1 (ix1 r) = pboxRow x1 r 2 := by
  rw [val_main_v35_apply, val_main_v34_apply]
  exact congrArg (val_main_v12 (F := Ideal) x1)
    (funext fun a => match a with | ⟨0, _⟩ => Fin.ext (Nat.div_one _) | ⟨1, _⟩ => rfl)

/-- Column 3: the height. -/
theorem p_c3 (x1 : FVec Ideal S32x300x4 .f32) (r : Fin 9600) :
    val_main_v37 (F := Ideal) x1 (ix1 r) = pboxRow x1 r 3 := by
  rw [val_main_v37_apply, val_main_v36_apply]
  exact congrArg (val_main_v12 (F := Ideal) x1)
    (funext fun a => match a with | ⟨0, _⟩ => Fin.ext (Nat.div_one _) | ⟨1, _⟩ => rfl)

/-- centre x − ½ · width. -/
theorem p_left (x1 : FVec Ideal S32x300x4 .f32) (r : Fin 9600) :
    val_main_v40 (F := Ideal) x1 (ix1 r) = Cert.CostSpec.left (pboxRow x1 r) := by
  rw [val_main_v40_apply, val_main_v39_apply, val_main_v38_apply, val_main_cst_4_apply, p_c0, p_c2]
  rfl

/-- centre y − ½ · height. -/
theorem p_top (x1 : FVec Ideal S32x300x4 .f32) (r : Fin 9600) :
    val_main_v43 (F := Ideal) x1 (ix1 r) = Cert.CostSpec.top (pboxRow x1 r) := by
  rw [val_main_v43_apply, val_main_v42_apply, val_main_v41_apply, val_main_cst_5_apply, p_c1, p_c3]
  rfl

/-- centre x + ½ · width. -/
theorem p_right (x1 : FVec Ideal S32x300x4 .f32) (r : Fin 9600) :
    val_main_v46 (F := Ideal) x1 (ix1 r) = Cert.CostSpec.right (pboxRow x1 r) := by
  rw [val_main_v46_apply, val_main_v45_apply, val_main_v44_apply, val_main_cst_6_apply, p_c0, p_c2]
  rfl

/-- centre y + ½ · height. -/
theorem p_bottom (x1 : FVec Ideal S32x300x4 .f32) (r : Fin 9600) :
    val_main_v49 (F := Ideal) x1 (ix1 r) = Cert.CostSpec.bottom (pboxRow x1 r) := by
  rw [val_main_v49_apply, val_main_v48_apply, val_main_v47_apply, val_main_cst_7_apply, p_c1, p_c3]
  rfl

/-- Column 0 of the joined array is the first piece's only column: the left edge. -/
theorem p_corner0 (x1 : FVec Ideal S32x300x4 .f32) (r : Fin 9600) :
    val_main_v54 (F := Ideal) x1 (ix2 r (0 : Fin 4)) = Cert.CostSpec.left (pboxRow x1 r) := by
  have h : val_main_v54 (F := Ideal) x1 (ix2 r (0 : Fin 4)) = val_main_v50 (F := Ideal) x1 (ix2 r (0 : Fin 1)) := by
    unfold val_main_v54
    exact concatenate_apply_piece (t := S9600x4) 1 _ _ (ix2 r (0 : Fin 4)) 0 (by simp) S9600x1
      (val_main_v50 (F := Ideal) x1) rfl rfl 0 rfl (ix2 r (0 : Fin 1))
      (fun b hb => match b with | ⟨0, _⟩ => rfl | ⟨1, _⟩ => absurd rfl hb) rfl
  rw [h, val_main_v50_apply, ← p_left]
  exact congrArg (val_main_v40 (F := Ideal) x1) (funext fun a => match a with | ⟨0, _⟩ => rfl)

/-- Column 1 is the second piece's: the top edge. -/
theorem p_corner1 (x1 : FVec Ideal S32x300x4 .f32) (r : Fin 9600) :
    val_main_v54 (F := Ideal) x1 (ix2 r (1 : Fin 4)) = Cert.CostSpec.top (pboxRow x1 r) := by
  have h : val_main_v54 (F := Ideal) x1 (ix2 r (1 : Fin 4)) = val_main_v51 (F := Ideal) x1 (ix2 r (0 : Fin 1)) := by
    unfold val_main_v54
    exact concatenate_apply_piece (t := S9600x4) 1 _ _ (ix2 r (1 : Fin 4)) 1 (by simp) S9600x1
      (val_main_v51 (F := Ideal) x1) rfl rfl 1 rfl (ix2 r (0 : Fin 1))
      (fun b hb => match b with | ⟨0, _⟩ => rfl | ⟨1, _⟩ => absurd rfl hb) rfl
  rw [h, val_main_v51_apply, ← p_top]
  exact congrArg (val_main_v43 (F := Ideal) x1) (funext fun a => match a with | ⟨0, _⟩ => rfl)

/-- Column 2 is the third piece's: the right edge. -/
theorem p_corner2 (x1 : FVec Ideal S32x300x4 .f32) (r : Fin 9600) :
    val_main_v54 (F := Ideal) x1 (ix2 r (2 : Fin 4)) = Cert.CostSpec.right (pboxRow x1 r) := by
  have h : val_main_v54 (F := Ideal) x1 (ix2 r (2 : Fin 4)) = val_main_v52 (F := Ideal) x1 (ix2 r (0 : Fin 1)) := by
    unfold val_main_v54
    exact concatenate_apply_piece (t := S9600x4) 1 _ _ (ix2 r (2 : Fin 4)) 2 (by simp) S9600x1
      (val_main_v52 (F := Ideal) x1) rfl rfl 2 rfl (ix2 r (0 : Fin 1))
      (fun b hb => match b with | ⟨0, _⟩ => rfl | ⟨1, _⟩ => absurd rfl hb) rfl
  rw [h, val_main_v52_apply, ← p_right]
  exact congrArg (val_main_v46 (F := Ideal) x1) (funext fun a => match a with | ⟨0, _⟩ => rfl)

/-- Column 3 is the fourth piece's: the bottom edge. -/
theorem p_corner3 (x1 : FVec Ideal S32x300x4 .f32) (r : Fin 9600) :
    val_main_v54 (F := Ideal) x1 (ix2 r (3 : Fin 4)) = Cert.CostSpec.bottom (pboxRow x1 r) := by
  have h : val_main_v54 (F := Ideal) x1 (ix2 r (3 : Fin 4)) = val_main_v53 (F := Ideal) x1 (ix2 r (0 : Fin 1)) := by
    unfold val_main_v54
    exact concatenate_apply_piece (t := S9600x4) 1 _ _ (ix2 r (3 : Fin 4)) 3 (by simp) S9600x1
      (val_main_v53 (F := Ideal) x1) rfl rfl 3 rfl (ix2 r (0 : Fin 1))
      (fun b hb => match b with | ⟨0, _⟩ => rfl | ⟨1, _⟩ => absurd rfl hb) rfl
  rw [h, val_main_v53_apply, ← p_bottom]
  exact congrArg (val_main_v49 (F := Ideal) x1) (funext fun a => match a with | ⟨0, _⟩ => rfl)

/-! ## The target boxes: the four columns, the four corners, the joined corner array -/

/-- Column 0 of the target boxes, as a vector over the rows: the centre's x. -/
theorem t_c0 (x3 : FVec Ideal S32x50x4 .f32) (q : Fin 1600) :
    val_main_v56 (F := Ideal) x3 (ix1 q) = tboxRow x3 q 0 := by
  rw [val_main_v56_apply, val_main_v55_apply]
  exact congrArg (val_main_v14 (F := Ideal) x3)
    (funext fun a => match a with | ⟨0, _⟩ => Fin.ext (Nat.div_one _) | ⟨1, _⟩ => rfl)

/-- Column 1: the centre's y. -/
theorem t_c1 (x3 : FVec Ideal S32x50x4 .f32) (q : Fin 1600) :
    val_main_v58 (F := Ideal) x3 (ix1 q) = tboxRow x3 q 1 := by
  rw [val_main_v58_apply, val_main_v57_apply]
  exact congrArg (val_main_v14 (F := Ideal) x3)
    (funext fun a => match a with | ⟨0, _⟩ => Fin.ext (Nat.div_one _) | ⟨1, _⟩ => rfl)

/-- Column 2: the width. -/
theorem t_c2 (x3 : FVec Ideal S32x50x4 .f32) (q : Fin 1600) :
    val_main_v60 (F := Ideal) x3 (ix1 q) = tboxRow x3 q 2 := by
  rw [val_main_v60_apply, val_main_v59_apply]
  exact congrArg (val_main_v14 (F := Ideal) x3)
    (funext fun a => match a with | ⟨0, _⟩ => Fin.ext (Nat.div_one _) | ⟨1, _⟩ => rfl)

/-- Column 3: the height. -/
theorem t_c3 (x3 : FVec Ideal S32x50x4 .f32) (q : Fin 1600) :
    val_main_v62 (F := Ideal) x3 (ix1 q) = tboxRow x3 q 3 := by
  rw [val_main_v62_apply, val_main_v61_apply]
  exact congrArg (val_main_v14 (F := Ideal) x3)
    (funext fun a => match a with | ⟨0, _⟩ => Fin.ext (Nat.div_one _) | ⟨1, _⟩ => rfl)

/-- centre x − ½ · width. -/
theorem t_left (x3 : FVec Ideal S32x50x4 .f32) (q : Fin 1600) :
    val_main_v65 (F := Ideal) x3 (ix1 q) = Cert.CostSpec.left (tboxRow x3 q) := by
  rw [val_main_v65_apply, val_main_v64_apply, val_main_v63_apply, val_main_cst_8_apply, t_c0, t_c2]
  rfl

/-- centre y − ½ · height. -/
theorem t_top (x3 : FVec Ideal S32x50x4 .f32) (q : Fin 1600) :
    val_main_v68 (F := Ideal) x3 (ix1 q) = Cert.CostSpec.top (tboxRow x3 q) := by
  rw [val_main_v68_apply, val_main_v67_apply, val_main_v66_apply, val_main_cst_9_apply, t_c1, t_c3]
  rfl

/-- centre x + ½ · width. -/
theorem t_right (x3 : FVec Ideal S32x50x4 .f32) (q : Fin 1600) :
    val_main_v71 (F := Ideal) x3 (ix1 q) = Cert.CostSpec.right (tboxRow x3 q) := by
  rw [val_main_v71_apply, val_main_v70_apply, val_main_v69_apply, val_main_cst_10_apply, t_c0, t_c2]
  rfl

/-- centre y + ½ · height. -/
theorem t_bottom (x3 : FVec Ideal S32x50x4 .f32) (q : Fin 1600) :
    val_main_v74 (F := Ideal) x3 (ix1 q) = Cert.CostSpec.bottom (tboxRow x3 q) := by
  rw [val_main_v74_apply, val_main_v73_apply, val_main_v72_apply, val_main_cst_11_apply, t_c1, t_c3]
  rfl

/-- Column 0 of the joined array is the first piece's only column: the left edge. -/
theorem t_corner0 (x3 : FVec Ideal S32x50x4 .f32) (q : Fin 1600) :
    val_main_v79 (F := Ideal) x3 (ix2 q (0 : Fin 4)) = Cert.CostSpec.left (tboxRow x3 q) := by
  have h : val_main_v79 (F := Ideal) x3 (ix2 q (0 : Fin 4)) = val_main_v75 (F := Ideal) x3 (ix2 q (0 : Fin 1)) := by
    unfold val_main_v79
    exact concatenate_apply_piece (t := S1600x4) 1 _ _ (ix2 q (0 : Fin 4)) 0 (by simp) S1600x1
      (val_main_v75 (F := Ideal) x3) rfl rfl 0 rfl (ix2 q (0 : Fin 1))
      (fun b hb => match b with | ⟨0, _⟩ => rfl | ⟨1, _⟩ => absurd rfl hb) rfl
  rw [h, val_main_v75_apply, ← t_left]
  exact congrArg (val_main_v65 (F := Ideal) x3) (funext fun a => match a with | ⟨0, _⟩ => rfl)

/-- Column 1 is the second piece's: the top edge. -/
theorem t_corner1 (x3 : FVec Ideal S32x50x4 .f32) (q : Fin 1600) :
    val_main_v79 (F := Ideal) x3 (ix2 q (1 : Fin 4)) = Cert.CostSpec.top (tboxRow x3 q) := by
  have h : val_main_v79 (F := Ideal) x3 (ix2 q (1 : Fin 4)) = val_main_v76 (F := Ideal) x3 (ix2 q (0 : Fin 1)) := by
    unfold val_main_v79
    exact concatenate_apply_piece (t := S1600x4) 1 _ _ (ix2 q (1 : Fin 4)) 1 (by simp) S1600x1
      (val_main_v76 (F := Ideal) x3) rfl rfl 1 rfl (ix2 q (0 : Fin 1))
      (fun b hb => match b with | ⟨0, _⟩ => rfl | ⟨1, _⟩ => absurd rfl hb) rfl
  rw [h, val_main_v76_apply, ← t_top]
  exact congrArg (val_main_v68 (F := Ideal) x3) (funext fun a => match a with | ⟨0, _⟩ => rfl)

/-- Column 2 is the third piece's: the right edge. -/
theorem t_corner2 (x3 : FVec Ideal S32x50x4 .f32) (q : Fin 1600) :
    val_main_v79 (F := Ideal) x3 (ix2 q (2 : Fin 4)) = Cert.CostSpec.right (tboxRow x3 q) := by
  have h : val_main_v79 (F := Ideal) x3 (ix2 q (2 : Fin 4)) = val_main_v77 (F := Ideal) x3 (ix2 q (0 : Fin 1)) := by
    unfold val_main_v79
    exact concatenate_apply_piece (t := S1600x4) 1 _ _ (ix2 q (2 : Fin 4)) 2 (by simp) S1600x1
      (val_main_v77 (F := Ideal) x3) rfl rfl 2 rfl (ix2 q (0 : Fin 1))
      (fun b hb => match b with | ⟨0, _⟩ => rfl | ⟨1, _⟩ => absurd rfl hb) rfl
  rw [h, val_main_v77_apply, ← t_right]
  exact congrArg (val_main_v71 (F := Ideal) x3) (funext fun a => match a with | ⟨0, _⟩ => rfl)

/-- Column 3 is the fourth piece's: the bottom edge. -/
theorem t_corner3 (x3 : FVec Ideal S32x50x4 .f32) (q : Fin 1600) :
    val_main_v79 (F := Ideal) x3 (ix2 q (3 : Fin 4)) = Cert.CostSpec.bottom (tboxRow x3 q) := by
  have h : val_main_v79 (F := Ideal) x3 (ix2 q (3 : Fin 4)) = val_main_v78 (F := Ideal) x3 (ix2 q (0 : Fin 1)) := by
    unfold val_main_v79
    exact concatenate_apply_piece (t := S1600x4) 1 _ _ (ix2 q (3 : Fin 4)) 3 (by simp) S1600x1
      (val_main_v78 (F := Ideal) x3) rfl rfl 3 rfl (ix2 q (0 : Fin 1))
      (fun b hb => match b with | ⟨0, _⟩ => rfl | ⟨1, _⟩ => absurd rfl hb) rfl
  rw [h, val_main_v78_apply, ← t_bottom]
  exact congrArg (val_main_v74 (F := Ideal) x3) (funext fun a => match a with | ⟨0, _⟩ => rfl)

/-! ## The two areas: (right − left) · (bottom − top), read off the joined arrays -/

/-- The predicted box's right edge, re-sliced from the joined array. -/
theorem p_v81 (x1 : FVec Ideal S32x300x4 .f32) (r : Fin 9600) :
    val_main_v81 (F := Ideal) x1 (ix1 r) = Cert.CostSpec.right (pboxRow x1 r) := by
  have h : idx_main_v80 (idx_main_v81 (ix1 r)) = ix2 r (2 : Fin 4) := funext fun a => match a with
    | ⟨0, _⟩ => Fin.ext (Nat.div_one _)
    | ⟨1, _⟩ => rfl
  rw [val_main_v81_apply, val_main_v80_apply, h, p_corner2]

/-- Its left edge. -/
theorem p_v83 (x1 : FVec Ideal S32x300x4 .f32) (r : Fin 9600) :
    val_main_v83 (F := Ideal) x1 (ix1 r) = Cert.CostSpec.left (pboxRow x1 r) := by
  have h : idx_main_v82 (idx_main_v83 (ix1 r)) = ix2 r (0 : Fin 4) := funext fun a => match a with
    | ⟨0, _⟩ => Fin.ext (Nat.div_one _)
    | ⟨1, _⟩ => rfl
  rw [val_main_v83_apply, val_main_v82_apply, h, p_corner0]

/-- Its bottom edge. -/
theorem p_v86 (x1 : FVec Ideal S32x300x4 .f32) (r : Fin 9600) :
    val_main_v86 (F := Ideal) x1 (ix1 r) = Cert.CostSpec.bottom (pboxRow x1 r) := by
  have h : idx_main_v85 (idx_main_v86 (ix1 r)) = ix2 r (3 : Fin 4) := funext fun a => match a with
    | ⟨0, _⟩ => Fin.ext (Nat.div_one _)
    | ⟨1, _⟩ => rfl
  rw [val_main_v86_apply, val_main_v85_apply, h, p_corner3]

/-- Its top edge. -/
theorem p_v88 (x1 : FVec Ideal S32x300x4 .f32) (r : Fin 9600) :
    val_main_v88 (F := Ideal) x1 (ix1 r) = Cert.CostSpec.top (pboxRow x1 r) := by
  have h : idx_main_v87 (idx_main_v88 (ix1 r)) = ix2 r (1 : Fin 4) := funext fun a => match a with
    | ⟨0, _⟩ => Fin.ext (Nat.div_one _)
    | ⟨1, _⟩ => rfl
  rw [val_main_v88_apply, val_main_v87_apply, h, p_corner1]

/-- The predicted box's area. -/
theorem p_area (x1 : FVec Ideal S32x300x4 .f32) (r : Fin 9600) :
    val_main_v90 (F := Ideal) x1 (ix1 r) = Cert.CostSpec.area (pboxRow x1 r) := by
  rw [val_main_v90_apply, val_main_v84_apply, val_main_v89_apply, p_v81, p_v83, p_v86, p_v88]
  rfl

/-- The target box's right edge, re-sliced from the joined array. -/
theorem t_v92 (x3 : FVec Ideal S32x50x4 .f32) (q : Fin 1600) :
    val_main_v92 (F := Ideal) x3 (ix1 q) = Cert.CostSpec.right (tboxRow x3 q) := by
  have h : idx_main_v91 (idx_main_v92 (ix1 q)) = ix2 q (2 : Fin 4) := funext fun a => match a with
    | ⟨0, _⟩ => Fin.ext (Nat.div_one _)
    | ⟨1, _⟩ => rfl
  rw [val_main_v92_apply, val_main_v91_apply, h, t_corner2]

/-- Its left edge. -/
theorem t_v94 (x3 : FVec Ideal S32x50x4 .f32) (q : Fin 1600) :
    val_main_v94 (F := Ideal) x3 (ix1 q) = Cert.CostSpec.left (tboxRow x3 q) := by
  have h : idx_main_v93 (idx_main_v94 (ix1 q)) = ix2 q (0 : Fin 4) := funext fun a => match a with
    | ⟨0, _⟩ => Fin.ext (Nat.div_one _)
    | ⟨1, _⟩ => rfl
  rw [val_main_v94_apply, val_main_v93_apply, h, t_corner0]

/-- Its bottom edge. -/
theorem t_v97 (x3 : FVec Ideal S32x50x4 .f32) (q : Fin 1600) :
    val_main_v97 (F := Ideal) x3 (ix1 q) = Cert.CostSpec.bottom (tboxRow x3 q) := by
  have h : idx_main_v96 (idx_main_v97 (ix1 q)) = ix2 q (3 : Fin 4) := funext fun a => match a with
    | ⟨0, _⟩ => Fin.ext (Nat.div_one _)
    | ⟨1, _⟩ => rfl
  rw [val_main_v97_apply, val_main_v96_apply, h, t_corner3]

/-- Its top edge. -/
theorem t_v99 (x3 : FVec Ideal S32x50x4 .f32) (q : Fin 1600) :
    val_main_v99 (F := Ideal) x3 (ix1 q) = Cert.CostSpec.top (tboxRow x3 q) := by
  have h : idx_main_v98 (idx_main_v99 (ix1 q)) = ix2 q (1 : Fin 4) := funext fun a => match a with
    | ⟨0, _⟩ => Fin.ext (Nat.div_one _)
    | ⟨1, _⟩ => rfl
  rw [val_main_v99_apply, val_main_v98_apply, h, t_corner1]

/-- The target box's area. -/
theorem t_area (x3 : FVec Ideal S32x50x4 .f32) (q : Fin 1600) :
    val_main_v101 (F := Ideal) x3 (ix1 q) = Cert.CostSpec.area (tboxRow x3 q) := by
  rw [val_main_v101_apply, val_main_v95_apply, val_main_v100_apply, t_v92, t_v94, t_v97, t_v99]
  rfl

/-! ## The pairwise extremes of the corners

Entry (r, q, k) of a broadcast two-column slice is column k (or 2 + k) of row r of the predicted corners, or of row
q of the target corners. -/

/-- The larger of the two left edges. -/
theorem v108_0 (x1 : FVec Ideal S32x300x4 .f32) (x3 : FVec Ideal S32x50x4 .f32) (r : Fin 9600) (q : Fin 1600) :
    val_main_v108 (F := Ideal) x1 x3 (ix3 r q (0 : Fin 2))
      = max (Cert.CostSpec.left (pboxRow x1 r)) (Cert.CostSpec.left (tboxRow x3 q)) := by
  have hp : idx_main_v102 (idx_main_v103 (idx_main_v106 (ix3 r q (0 : Fin 2)))) = ix2 r (0 : Fin 4) :=
    funext fun a => match a with | ⟨0, _⟩ => rfl | ⟨1, _⟩ => rfl
  have ht : idx_main_v104 (idx_main_v105 (idx_main_v107 (ix3 r q (0 : Fin 2)))) = ix2 q (0 : Fin 4) :=
    funext fun a => match a with | ⟨0, _⟩ => rfl | ⟨1, _⟩ => rfl
  rw [val_main_v108_apply, val_main_v106_apply, val_main_v103_apply, val_main_v102_apply, val_main_v107_apply,
    val_main_v105_apply, val_main_v104_apply, hp, ht, p_corner0, t_corner0]
  rfl

/-- The larger of the two top edges. -/
theorem v108_1 (x1 : FVec Ideal S32x300x4 .f32) (x3 : FVec Ideal S32x50x4 .f32) (r : Fin 9600) (q : Fin 1600) :
    val_main_v108 (F := Ideal) x1 x3 (ix3 r q (1 : Fin 2))
      = max (Cert.CostSpec.top (pboxRow x1 r)) (Cert.CostSpec.top (tboxRow x3 q)) := by
  have hp : idx_main_v102 (idx_main_v103 (idx_main_v106 (ix3 r q (1 : Fin 2)))) = ix2 r (1 : Fin 4) :=
    funext fun a => match a with | ⟨0, _⟩ => rfl | ⟨1, _⟩ => rfl
  have ht : idx_main_v104 (idx_main_v105 (idx_main_v107 (ix3 r q (1 : Fin 2)))) = ix2 q (1 : Fin 4) :=
    funext fun a => match a with | ⟨0, _⟩ => rfl | ⟨1, _⟩ => rfl
  rw [val_main_v108_apply, val_main_v106_apply, val_main_v103_apply, val_main_v102_apply, val_main_v107_apply,
    val_main_v105_apply, val_main_v104_apply, hp, ht, p_corner1, t_corner1]
  rfl

/-- The smaller of the two right edges. -/
theorem v115_0 (x1 : FVec Ideal S32x300x4 .f32) (x3 : FVec Ideal S32x50x4 .f32) (r : Fin 9600) (q : Fin 1600) :
    val_main_v115 (F := Ideal) x1 x3 (ix3 r q (0 : Fin 2))
      = min (Cert.CostSpec.right (pboxRow x1 r)) (Cert.CostSpec.right (tboxRow x3 q)) := by
  have hp : idx_main_v109 (idx_main_v110 (idx_main_v113 (ix3 r q (0 : Fin 2)))) = ix2 r (2 : Fin 4) :=
    funext fun a => match a with | ⟨0, _⟩ => rfl | ⟨1, _⟩ => rfl
  have ht : idx_main_v111 (idx_main_v112 (idx_main_v114 (ix3 r q (0 : Fin 2)))) = ix2 q (2 : Fin 4) :=
    funext fun a => match a with | ⟨0, _⟩ => rfl | ⟨1, _⟩ => rfl
  rw [val_main_v115_apply, val_main_v113_apply, val_main_v110_apply, val_main_v109_apply, val_main_v114_apply,
    val_main_v112_apply, val_main_v111_apply, hp, ht, p_corner2, t_corner2]
  rfl

/-- The smaller of the two bottom edges. -/
theorem v115_1 (x1 : FVec Ideal S32x300x4 .f32) (x3 : FVec Ideal S32x50x4 .f32) (r : Fin 9600) (q : Fin 1600) :
    val_main_v115 (F := Ideal) x1 x3 (ix3 r q (1 : Fin 2))
      = min (Cert.CostSpec.bottom (pboxRow x1 r)) (Cert.CostSpec.bottom (tboxRow x3 q)) := by
  have hp : idx_main_v109 (idx_main_v110 (idx_main_v113 (ix3 r q (1 : Fin 2)))) = ix2 r (3 : Fin 4) :=
    funext fun a => match a with | ⟨0, _⟩ => rfl | ⟨1, _⟩ => rfl
  have ht : idx_main_v111 (idx_main_v112 (idx_main_v114 (ix3 r q (1 : Fin 2)))) = ix2 q (3 : Fin 4) :=
    funext fun a => match a with | ⟨0, _⟩ => rfl | ⟨1, _⟩ => rfl
  rw [val_main_v115_apply, val_main_v113_apply, val_main_v110_apply, val_main_v109_apply, val_main_v114_apply,
    val_main_v112_apply, val_main_v111_apply, hp, ht, p_corner3, t_corner3]
  rfl

/-- The smaller of the two left edges. -/
theorem v136_0 (x1 : FVec Ideal S32x300x4 .f32) (x3 : FVec Ideal S32x50x4 .f32) (r : Fin 9600) (q : Fin 1600) :
    val_main_v136 (F := Ideal) x1 x3 (ix3 r q (0 : Fin 2))
      = min (Cert.CostSpec.left (pboxRow x1 r)) (Cert.CostSpec.left (tboxRow x3 q)) := by
  have hp : idx_main_v130 (idx_main_v131 (idx_main_v134 (ix3 r q (0 : Fin 2)))) = ix2 r (0 : Fin 4) :=
    funext fun a => match a with | ⟨0, _⟩ => rfl | ⟨1, _⟩ => rfl
  have ht : idx_main_v132 (idx_main_v133 (idx_main_v135 (ix3 r q (0 : Fin 2)))) = ix2 q (0 : Fin 4) :=
    funext fun a => match a with | ⟨0, _⟩ => rfl | ⟨1, _⟩ => rfl
  rw [val_main_v136_apply, val_main_v134_apply, val_main_v131_apply, val_main_v130_apply, val_main_v135_apply,
    val_main_v133_apply, val_main_v132_apply, hp, ht, p_corner0, t_corner0]
  rfl

/-- The smaller of the two top edges. -/
theorem v136_1 (x1 : FVec Ideal S32x300x4 .f32) (x3 : FVec Ideal S32x50x4 .f32) (r : Fin 9600) (q : Fin 1600) :
    val_main_v136 (F := Ideal) x1 x3 (ix3 r q (1 : Fin 2))
      = min (Cert.CostSpec.top (pboxRow x1 r)) (Cert.CostSpec.top (tboxRow x3 q)) := by
  have hp : idx_main_v130 (idx_main_v131 (idx_main_v134 (ix3 r q (1 : Fin 2)))) = ix2 r (1 : Fin 4) :=
    funext fun a => match a with | ⟨0, _⟩ => rfl | ⟨1, _⟩ => rfl
  have ht : idx_main_v132 (idx_main_v133 (idx_main_v135 (ix3 r q (1 : Fin 2)))) = ix2 q (1 : Fin 4) :=
    funext fun a => match a with | ⟨0, _⟩ => rfl | ⟨1, _⟩ => rfl
  rw [val_main_v136_apply, val_main_v134_apply, val_main_v131_apply, val_main_v130_apply, val_main_v135_apply,
    val_main_v133_apply, val_main_v132_apply, hp, ht, p_corner1, t_corner1]
  rfl

/-- The larger of the two right edges. -/
theorem v143_0 (x1 : FVec Ideal S32x300x4 .f32) (x3 : FVec Ideal S32x50x4 .f32) (r : Fin 9600) (q : Fin 1600) :
    val_main_v143 (F := Ideal) x1 x3 (ix3 r q (0 : Fin 2))
      = max (Cert.CostSpec.right (pboxRow x1 r)) (Cert.CostSpec.right (tboxRow x3 q)) := by
  have hp : idx_main_v137 (idx_main_v138 (idx_main_v141 (ix3 r q (0 : Fin 2)))) = ix2 r (2 : Fin 4) :=
    funext fun a => match a with | ⟨0, _⟩ => rfl | ⟨1, _⟩ => rfl
  have ht : idx_main_v139 (idx_main_v140 (idx_main_v142 (ix3 r q (0 : Fin 2)))) = ix2 q (2 : Fin 4) :=
    funext fun a => match a with | ⟨0, _⟩ => rfl | ⟨1, _⟩ => rfl
  rw [val_main_v143_apply, val_main_v141_apply, val_main_v138_apply, val_main_v137_apply, val_main_v142_apply,
    val_main_v140_apply, val_main_v139_apply, hp, ht, p_corner2, t_corner2]
  rfl

/-- The larger of the two bottom edges. -/
theorem v143_1 (x1 : FVec Ideal S32x300x4 .f32) (x3 : FVec Ideal S32x50x4 .f32) (r : Fin 9600) (q : Fin 1600) :
    val_main_v143 (F := Ideal) x1 x3 (ix3 r q (1 : Fin 2))
      = max (Cert.CostSpec.bottom (pboxRow x1 r)) (Cert.CostSpec.bottom (tboxRow x3 q)) := by
  have hp : idx_main_v137 (idx_main_v138 (idx_main_v141 (ix3 r q (1 : Fin 2)))) = ix2 r (3 : Fin 4) :=
    funext fun a => match a with | ⟨0, _⟩ => rfl | ⟨1, _⟩ => rfl
  have ht : idx_main_v139 (idx_main_v140 (idx_main_v142 (ix3 r q (1 : Fin 2)))) = ix2 q (3 : Fin 4) :=
    funext fun a => match a with | ⟨0, _⟩ => rfl | ⟨1, _⟩ => rfl
  rw [val_main_v143_apply, val_main_v141_apply, val_main_v138_apply, val_main_v137_apply, val_main_v142_apply,
    val_main_v140_apply, val_main_v139_apply, hp, ht, p_corner3, t_corner3]
  rfl

/-! ## The clipped extents: a difference of corners, cut off below at the zero word -/

/-- The intersection's width. -/
theorem v117_0 (x1 : FVec Ideal S32x300x4 .f32) (x3 : FVec Ideal S32x50x4 .f32) (r : Fin 9600) (q : Fin 1600) :
    val_main_v117 (F := Ideal) x1 x3 (ix3 r q (0 : Fin 2))
      = max Cert.CostSpec.zero (min (Cert.CostSpec.right (pboxRow x1 r)) (Cert.CostSpec.right (tboxRow x3 q))
          - max (Cert.CostSpec.left (pboxRow x1 r)) (Cert.CostSpec.left (tboxRow x3 q))) := by
  rw [val_main_v117_apply, val_main_call0_v1_apply, val_main_call0_v0_apply, val_main_cst_12_apply,
    val_main_v116_apply, v115_0, v108_0]
  rfl

/-- The intersection's height. -/
theorem v117_1 (x1 : FVec Ideal S32x300x4 .f32) (x3 : FVec Ideal S32x50x4 .f32) (r : Fin 9600) (q : Fin 1600) :
    val_main_v117 (F := Ideal) x1 x3 (ix3 r q (1 : Fin 2))
      = max Cert.CostSpec.zero (min (Cert.CostSpec.bottom (pboxRow x1 r)) (Cert.CostSpec.bottom (tboxRow x3 q))
          - max (Cert.CostSpec.top (pboxRow x1 r)) (Cert.CostSpec.top (tboxRow x3 q))) := by
  rw [val_main_v117_apply, val_main_call0_v1_apply, val_main_call0_v0_apply, val_main_cst_12_apply,
    val_main_v116_apply, v115_1, v108_1]
  rfl

/-- The enclosing box's width. -/
theorem v145_0 (x1 : FVec Ideal S32x300x4 .f32) (x3 : FVec Ideal S32x50x4 .f32) (r : Fin 9600) (q : Fin 1600) :
    val_main_v145 (F := Ideal) x1 x3 (ix3 r q (0 : Fin 2))
      = max Cert.CostSpec.zero (max (Cert.CostSpec.right (pboxRow x1 r)) (Cert.CostSpec.right (tboxRow x3 q))
          - min (Cert.CostSpec.left (pboxRow x1 r)) (Cert.CostSpec.left (tboxRow x3 q))) := by
  rw [val_main_v145_apply, val_main_call1_v1_apply, val_main_call1_v0_apply, val_main_cst_13_apply,
    val_main_v144_apply, v143_0, v136_0]
  rfl

/-- The enclosing box's height. -/
theorem v145_1 (x1 : FVec Ideal S32x300x4 .f32) (x3 : FVec Ideal S32x50x4 .f32) (r : Fin 9600) (q : Fin 1600) :
    val_main_v145 (F := Ideal) x1 x3 (ix3 r q (1 : Fin 2))
      = max Cert.CostSpec.zero (max (Cert.CostSpec.bottom (pboxRow x1 r)) (Cert.CostSpec.bottom (tboxRow x3 q))
          - min (Cert.CostSpec.top (pboxRow x1 r)) (Cert.CostSpec.top (tboxRow x3 q))) := by
  rw [val_main_v145_apply, val_main_call1_v1_apply, val_main_call1_v0_apply, val_main_cst_13_apply,
    val_main_v144_apply, v143_1, v136_1]
  rfl

/-! ## Intersection, union, enclosing box -/

/-- The intersection's area: the product of the two clipped extents. -/
theorem ref_inter (x1 : FVec Ideal S32x300x4 .f32) (x3 : FVec Ideal S32x50x4 .f32) (r : Fin 9600) (q : Fin 1600) :
    val_main_v122 (F := Ideal) x1 x3 (ix2 r q) = Cert.CostSpec.inter (pboxRow x1 r) (tboxRow x3 q) := by
  have h0 : idx_main_v118 (idx_main_v119 (ix2 r q)) = ix3 r q (0 : Fin 2) := funext fun a => match a with
    | ⟨0, _⟩ => Fin.ext (by show (r.val * 1600 + q.val) / 1600 = r.val; have := q.isLt; omega)
    | ⟨1, _⟩ => Fin.ext (by show (r.val * 1600 + q.val) / 1 % 1600 = q.val; have := q.isLt; omega)
    | ⟨2, _⟩ => rfl
  have h1 : idx_main_v120 (idx_main_v121 (ix2 r q)) = ix3 r q (1 : Fin 2) := funext fun a => match a with
    | ⟨0, _⟩ => Fin.ext (by show (r.val * 1600 + q.val) / 1600 = r.val; have := q.isLt; omega)
    | ⟨1, _⟩ => Fin.ext (by show (r.val * 1600 + q.val) / 1 % 1600 = q.val; have := q.isLt; omega)
    | ⟨2, _⟩ => rfl
  rw [val_main_v122_apply, val_main_v119_apply, val_main_v118_apply, val_main_v121_apply, val_main_v120_apply,
    h0, h1, v117_0, v117_1]
  rfl

/-- The union's area: the two areas less the intersection's. -/
theorem ref_union (x1 : FVec Ideal S32x300x4 .f32) (x3 : FVec Ideal S32x50x4 .f32) (r : Fin 9600) (q : Fin 1600) :
    val_main_v128 (F := Ideal) x1 x3 (ix2 r q) = Cert.CostSpec.union (pboxRow x1 r) (tboxRow x3 q) := by
  have hp : idx_main_v123 (idx_main_v125 (ix2 r q)) = ix1 r := funext fun a => match a with | ⟨0, _⟩ => rfl
  have ht : idx_main_v124 (idx_main_v126 (ix2 r q)) = ix1 q := funext fun a => match a with | ⟨0, _⟩ => rfl
  rw [val_main_v128_apply, val_main_v127_apply, val_main_v125_apply, val_main_v123_apply, val_main_v126_apply,
    val_main_v124_apply, hp, ht, p_area, t_area, ref_inter]
  rfl

/-- The enclosing box's area. -/
theorem ref_hull (x1 : FVec Ideal S32x300x4 .f32) (x3 : FVec Ideal S32x50x4 .f32) (r : Fin 9600) (q : Fin 1600) :
    val_main_v150 (F := Ideal) x1 x3 (ix2 r q) = Cert.CostSpec.hull (pboxRow x1 r) (tboxRow x3 q) := by
  have h0 : idx_main_v146 (idx_main_v147 (ix2 r q)) = ix3 r q (0 : Fin 2) := funext fun a => match a with
    | ⟨0, _⟩ => Fin.ext (by show (r.val * 1600 + q.val) / 1600 = r.val; have := q.isLt; omega)
    | ⟨1, _⟩ => Fin.ext (by show (r.val * 1600 + q.val) / 1 % 1600 = q.val; have := q.isLt; omega)
    | ⟨2, _⟩ => rfl
  have h1 : idx_main_v148 (idx_main_v149 (ix2 r q)) = ix3 r q (1 : Fin 2) := funext fun a => match a with
    | ⟨0, _⟩ => Fin.ext (by show (r.val * 1600 + q.val) / 1600 = r.val; have := q.isLt; omega)
    | ⟨1, _⟩ => Fin.ext (by show (r.val * 1600 + q.val) / 1 % 1600 = q.val; have := q.isLt; omega)
    | ⟨2, _⟩ => rfl
  rw [val_main_v150_apply, val_main_v147_apply, val_main_v146_apply, val_main_v149_apply, val_main_v148_apply,
    h0, h1, v145_0, v145_1]
  rfl

/-! ## The two terms -/

/-- The L1 term at row `r`, column `q`. -/
theorem ref_l1 (x1 : FVec Ideal S32x300x4 .f32) (x3 : FVec Ideal S32x50x4 .f32) (r : Fin 9600) (q : Fin 1600) :
    val_main_v29 (F := Ideal) x1 x3 (ix2 r q) = Cert.CostSpec.l1 (pboxRow x1 r) (tboxRow x3 q) := by
  rw [val_main_v29_apply]
  unfold Cert.CostSpec.l1
  refine congrArg₂ (· + ·) rfl (Finset.sum_congr rfl fun k _ => ?_)
  rw [val_main_v28_apply, val_main_v27_apply, val_main_v25_apply, val_main_v26_apply, val_main_v23_apply,
    val_main_v24_apply, l1_pidx, l1_tidx]
  rfl

/-- The GIoU term at row `r`, column `q`. -/
theorem ref_giou (x1 : FVec Ideal S32x300x4 .f32) (x3 : FVec Ideal S32x50x4 .f32) (r : Fin 9600) (q : Fin 1600) :
    val_main_v154 (F := Ideal) x1 x3 (ix2 r q) = -Cert.CostSpec.giou (pboxRow x1 r) (tboxRow x3 q) := by
  rw [val_main_v154_apply, val_main_v153_apply, val_main_v129_apply, val_main_v152_apply, val_main_v151_apply,
    ref_inter, ref_union, ref_hull]
  rfl

end Cert.ReferenceIdeal.RefValue

end
-- ==== Proof.lean ====
/-
  The certificate: a kernel computing the matching-cost matrix between 32·300 predicted boxes and 32·50 target boxes
  — 5 · (L1 distance of the boxes) − (softmax probability of the target's class) − 2 · (generalised IoU) — equals its
  reference over the extended reals, for finite inputs whose labels are class indices (0 ≤ label < 92).

  The two programs differ in one place. The reference reads the probability of a target's class by indexing the row
  of probabilities with the label; the kernel multiplies the row by a 92 × 1600 class indicator (1 where the row
  number is the target's label, 0 elsewhere), so each entry of the product is a sum with one non-zero term. For a
  label in range that term is the label's probability; for a label out of range the indicator's column is zero while
  the reference's index is wrapped or clamped to some class, which is why the labels' range is part of the
  precondition. Everything else — the softmax, the four absolute differences, the corners, areas, intersection,
  union and enclosing box of the GIoU, the weights — is the same expression in the same order on both sides, up to
  the order of a four-term sum and the spelling of a negation as a difference from zero.

  Frames: each program runs to the end, faults nowhere and leaves its four arguments unchanged; for the kernel this
  is the launch over twenty grid points, each storing one 480 × 1600 block of the matrix. The kernel's idealization
  rewrote no operation, so that claim is trivial.
-/
import proofs.«408791_j987842478748_1_alg».proof.Defs
import proofs.«408791_j987842478748_1_alg».proof.Proof.Gen.Kernel
import proofs.«408791_j987842478748_1_alg».proof.Proof.Gen.KernelIdeal
import proofs.«408791_j987842478748_1_alg».proof.Proof.Gen.ReferenceIdeal
import proofs.«408791_j987842478748_1_alg».proof.Proof.Gen.Pre_finite_inputs
import proofs.«408791_j987842478748_1_alg».proof.Proof.Gen.ReferenceIdeal.Run
import proofs.«408791_j987842478748_1_alg».proof.Proof.Gen.ReferenceIdeal.Read
import proofs.«408791_j987842478748_1_alg».proof.Proof.KFrame
import proofs.«408791_j987842478748_1_alg».proof.Proof.KIFrame
import proofs.«408791_j987842478748_1_alg».proof.Proof.KIValue
import proofs.«408791_j987842478748_1_alg».proof.Proof.KIPayload
import proofs.«408791_j987842478748_1_alg».proof.Proof.KIHost
import proofs.«408791_j987842478748_1_alg».proof.Proof.PreLabels
import proofs.«408791_j987842478748_1_alg».proof.Proof.RefGlue
import proofs.«408791_j987842478748_1_alg».proof.Proof.RefClass
import proofs.«408791_j987842478748_1_alg».proof.Proof.RefBoxes
import Idealize.ShloMosaic.Adequacy
import Idealize.ShloMosaic.Init

noncomputable section

namespace Cert.Proof

open Idealize.ShloMosaic Idealize.SL.Sem

/-! ## The facts the two sides' modules prove, in the form the run lemmas take them -/

/-- One entry of the block of costs the kernel's body stores is the matching cost. -/
theorem payloadLaw : Cert.KernelIdeal.HandValue.PayloadLaw :=
  fun x0 x1 x2 x3 x4 p q cls hleft htop hright hbottom hind =>
    Cert.KernelIdeal.Payload.blockCost_apply x0 x1 x2 x3 x4 p q cls hleft htop hright hbottom hind

/-- What the kernel's host operations leave in the five arrays the launch reads. -/
theorem hostFacts (m : (ℓ : Loc Cert.KernelIdeal.nD Cert.KernelIdeal.τ Cert.KernelIdeal.sig) → Buf (Elt Ideal) ℓ) :
    Cert.KernelIdeal.HandValue.HostFacts m where
  logits := Cert.KernelIdeal.Host.V_logits m
  pbox := Cert.KernelIdeal.Host.V_pbox m
  tbox := Cert.KernelIdeal.Host.V_tbox m
  labels := Cert.KernelIdeal.Host.V_labels m
  left := Cert.KernelIdeal.Host.V_corner_left m
  top := Cert.KernelIdeal.Host.V_corner_top m
  right := Cert.KernelIdeal.Host.V_corner_right m
  bottom := Cert.KernelIdeal.Host.V_corner_bottom m
  indicator := Cert.KernelIdeal.Host.V_indicator m

/-- The reference's class term. -/
theorem classTerm : Cert.ReferenceIdeal.RefValue.ClassTerm :=
  fun x0 x2 hl r q => Cert.ReferenceIdeal.RefValue.ref_class x0 x2 hl r q

/-- The reference's L1 term. -/
theorem l1Term : Cert.ReferenceIdeal.RefValue.L1Term :=
  fun x1 x3 r q => Cert.ReferenceIdeal.RefValue.ref_l1 x1 x3 r q

/-- The reference's GIoU term. -/
theorem giouTerm : Cert.ReferenceIdeal.RefValue.GiouTerm :=
  fun x1 x3 r q => Cert.ReferenceIdeal.RefValue.ref_giou x1 x3 r q

/-! ## The claims -/

/-- The word-level kernel runs to the end, faults nowhere and leaves its arguments as they were. -/
theorem frame_kernel : Cert.frame_Kernel := fun m ρ _ => Cert.Kernel.Frame.frame m ρ

/-- So does its reading over the extended reals. -/
theorem frame_kernel_ideal : Cert.frame_KernelIdeal := fun m ρ _ => Cert.KernelIdeal.Frame.frame m ρ

/-- And the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories that agree on the four arguments and whose labels are class indices, the
    kernel and the reference both end with the cost matrix of the arguments. -/
theorem algebraic : Cert.algebraic_KernelIdeal_ReferenceIdeal := by
  intro m ρ m' ρ' hpre hagree
  have hl : ∀ c : Dev Cert.KernelIdeal.nD, Cert.CostSpec.LabelsInRange
      (m ((c.tc : Thread Cert.KernelIdeal.nD Cert.KernelIdeal.τ).loc Cert.KernelIdeal.main_arg2)) :=
    fun c => Cert.PreLabels.labels_of_pre m hpre c
  refine ⟨_, Cert.KernelIdeal.HandValue.kernel_run m ρ payloadLaw (hostFacts m) hl, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v163_eq, (hagree c).1, (hagree c).2.1, (hagree c).2.2.1, (hagree c).2.2.2]
  exact Cert.ReferenceIdeal.RefValue.ref_value_of classTerm l1Term giouTerm _ _ _ _ (hl c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
